-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S8192x2048 : Shape := ⟨2, ![8192, 2048]⟩
abbrev S8192 : Shape := ⟨1, ![8192]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S2048x2048 .f32) (main_arg1 : FVec F S2048x2048 .f32) (main_arg2 : FVec F S2048x2048 .f32) (main_arg3 : FVec F S8192x2048 .f32) (main_arg4 : FVec F S8192 .f32) (main_arg5 : FVec F S8192x2048 .f32) (main_arg6 : FVec F S8192 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S2048x2048 : Shape := ⟨2, ![2048, 2048]⟩
abbrev S8192x2048 : Shape := ⟨2, ![8192, 2048]⟩
abbrev S8192 : Shape := ⟨1, ![8192]⟩
abbrev S1x8192 : Shape := ⟨2, ![1, 8192]⟩
abbrev S128x256 : Shape := ⟨2, ![128, 256]⟩
abbrev S8192x256 : Shape := ⟨2, ![8192, 256]⟩
abbrev S128x2048 : Shape := ⟨2, ![128, 2048]⟩
abbrev S128x8192 : Shape := ⟨2, ![128, 8192]⟩

abbrev nBuf : Space → Nat
  | .hbm => 19
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x2048, .bf16⟩
  | .hbm, ⟨8, _⟩ => ⟨S2048x2048, .bf16⟩
  | .hbm, ⟨9, _⟩ => ⟨S8192x2048, .bf16⟩
  | .hbm, ⟨10, _⟩ => ⟨S8192x2048, .bf16⟩
  | .hbm, ⟨11, _⟩ => ⟨S1x8192, .f32⟩
  | .hbm, ⟨12, _⟩ => ⟨S1x8192, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S8192x256, .bf16⟩
  | .local _ .vmem, ⟨8, _⟩ => ⟨S1x8192, .f32⟩
  | .local _ .vmem, ⟨9, _⟩ => ⟨S1x8192, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x8192, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

class Facts₀ : Prop where
  bitsLt_bf16_f32 : FTy.bits .bf16 < FTy.bits .f32
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  slices_S128x8192_o0_0_S128x2048 : S128x8192.Slices ![0, 0] S128x2048
  slices_S128x8192_o0_2048_S128x2048 : S128x8192.Slices ![0, 2048] S128x2048
  slices_S128x8192_o0_4096_S128x2048 : S128x8192.Slices ![0, 4096] S128x2048
  slices_S128x8192_o0_6144_S128x2048 : S128x8192.Slices ![0, 6144] S128x2048
  inb_S128x2048_S128x2048_0_0 : ∀ a, (![0, 0] : Fin 2 → Nat) a + S128x2048.size a ≤ S128x2048.size a
  h_S128x2048 : 0 < S128x2048.numel
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x2048.size a
  hwx0_0 : ∀ i : grid0.Coords, EltTy.bits .bf16 = 32 ∨ (Rect.block (s := S2048x2048) S128x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S2048x2048.size a
  hwx0_1 : ∀ i : grid0.Coords, EltTy.bits .bf16 = 32 ∨ (Rect.block (s := S2048x2048) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x2048.size a
  hwx0_2 : ∀ i : grid0.Coords, EltTy.bits .bf16 = 32 ∨ (Rect.block (s := S8192x2048) S8192x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x2048.size a
  hwx0_3 : ∀ i : grid0.Coords, EltTy.bits .bf16 = 32 ∨ (Rect.block (s := S8192x2048) S8192x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .f32 = 32 ∨ (Rect.block (s := S2048x2048) S128x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .f32 = 32 ∨ (Rect.block (s := S2048x2048) S128x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .f32 = 32 ∨ (Rect.block (s := S2048x2048) S128x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .f32 = 32 ∨ (Rect.block (s := S2048x2048) S128x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .f32 = 32 ∨ (Rect.block (s := S2048x2048) S128x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S2048x2048.size a
  hwx0_12 : ∀ i : grid0.Coords, EltTy.bits .f32 = 32 ∨ (Rect.block (s := S2048x2048) S128x2048.size (cc0_transform_12 i) (hinb0_12 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_v0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S128x2048.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S128x2048.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S128x2048.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S128x2048.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_4) S128x2048.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6_5) S128x2048.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | 10 => fun i => !(k0_cond2 i == 1#1) | 11 => fun i => !(k0_cond2 i == 1#1) | 12 => fun i => !(k0_cond2 i == 1#1) | ⟨_ + 13, h⟩ => absurd h (Nat.not_lt.2 (Nat.le_add_left _ _))

class Facts : Prop extends Facts₀ where

variable [Facts]
-- ==== ReferenceIdeal.lean ====
abbrev S2048x2048 : Shape := ⟨2, ![2048, 2048]⟩
abbrev S8192x2048 : Shape := ⟨2, ![8192, 2048]⟩
abbrev S8192 : Shape := ⟨1, ![8192]⟩
abbrev S2048x8192 : Shape := ⟨2, ![2048, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S2048x8192, .f32⟩
  | .hbm, ⟨9, _⟩ => ⟨S1x8192, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S1x8192, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  bcast_S_S2048x2048 : S_.BroadcastsInDim S2048x2048 (![] : Fin 0 → Fin S2048x2048.rank)
  dot_S2048x2048_S2048x8192_S2048x8192_1_0_0_1_n_n_wf : DotDims.WF S2048x2048 S2048x8192 S2048x8192 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf

class Facts : Prop extends Facts₀ where

variable [Facts]
-- ==== Proof.KernelPieces.lean ====
import proofs.«156340_j49675591746256_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 buffer read or written whole. -/
theorem offsets_zero : (![0, 0] : Fin 2 → ℕ) = fun _ => 0 := by
  funext a; match a with | ⟨0, _⟩ => rfl | ⟨1, _⟩ => rfl

/-! ## What each case of the body leaves, as payloads of the blocks it was handed

The body has three cases. At the first contraction step of a batch tile it stores the bias row, broadcast over the
128 rows, into the accumulator and then adds that step's two products to it; at the middle steps it adds the step's
two products to what the step before left; at the last step it does the same and then computes the six results
from the accumulator it has just stored. -/

/-- First contraction step: the accumulator ends at (bias row broadcast) + the step's two products. -/
theorem acc_first (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : cond0_0 i) (hc1 : ¬cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay2 x0 x2 x1 x3 (k0_pay1 x4 x5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero (S := S128x8192) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

/-- A middle contraction step: the accumulator ends at what the step before left + the step's two products. -/
theorem acc_middle (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : ¬cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay2 x0 x2 x1 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_B
  dsimp only
  sl_unfold_words
  rw [View.canon_unit_zero (S := S128x8192) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero]

/-- The last contraction step leaves the accumulator likewise. -/
theorem acc_last (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay2 x0 x2 x1 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x8192) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero]

/-- The last contraction step leaves the new hidden state of the finished accumulator in result block 0. -/
theorem out_last_7 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay8 (k0_pay2 x0 x2 x1 x3 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x2048) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

end Cert.KernelIdeal.Pieces

end
-- ==== Proof.LstmSpec.lean ====
/-
  One LSTM cell step, stated index by index over the extended reals.

  For a batch row `r` and a gate column `n` (the four gates i, f, g, o laid side by side, 2048 columns each, in a row
  of 8192) the PRE-ACTIVATION is
      pre r n = ((Σₖ x r k · W_ih n k) + b_ih n) + (Σₖ h r k · W_hh n k) + b_hh n,      k over the 2048 inputs,
  and the six results at (r, j) are
      i = σ(pre r j),  f = σ(pre r (2048 + j)),  g = tanh(pre r (4096 + j)),  o = σ(pre r (6144 + j)),
      c' = f · c + i · g,   h' = o · tanh c',
  with σ z = 1 / (1 + e^(-z)).

  The same pre-activation can be accumulated in eight passes over the contraction axis, 256 inputs at a time, from
  the two biases added first:
      acc₀ = (b_ih n + b_hh n) + T₀,   acc_{s+1} = acc_s + T_{s+1},   T_b = Σ_{kk<256} x r (256b+kk) · W_ih n (256b+kk)
                                                                         + Σ_{kk<256} h r (256b+kk) · W_hh n (256b+kk).
  `accAfter_last` says acc₇ = pre r n. Only the commutative-monoid laws of + are used (a sum split into consecutive
  blocks, a sum of sums taken apart, the summands regrouped): they hold on the extended reals with no finiteness
  assumption, so nothing here asks the inputs to be finite.
-/
import Idealize.ShloMosaic.PureOps.Ideal
import Idealize.ShloMosaic.Lib.ValueIdx
import Mathlib.Algebra.BigOperators.Intervals

noncomputable section

open scoped BigOperators

namespace Cert.LstmSpec

open Idealize.ShloMosaic Idealize.ShloMosaic.ValueIdx

/-- Activations, cell state and every result: batch × hidden, 2048 × 2048. -/
abbrev SAct : Shape := ⟨2, ![2048, 2048]⟩
/-- A weight matrix: (4 · hidden) × inputs, 8192 × 2048. -/
abbrev SWgt : Shape := ⟨2, ![8192, 2048]⟩
/-- A bias: 4 · hidden = 8192. -/
abbrev SBias : Shape := ⟨1, ![8192]⟩

/-! ## Sums over consecutive blocks -/

/-- A sum over `nb` consecutive blocks of `w` terms is the sum over all `w · nb` terms. -/
theorem sum_range_blocks {M : Type*} [AddCommMonoid M] (f : ℕ → M) (w : ℕ) :
    ∀ nb : ℕ, ∑ b ∈ Finset.range nb, ∑ kk ∈ Finset.range w, f (w * b + kk) = ∑ k ∈ Finset.range (w * nb), f k
  | 0 => by simp
  | nb + 1 => by
    rw [Finset.sum_range_succ, sum_range_blocks f w nb, Nat.mul_succ, Finset.sum_range_add]

/-- Column `256 · b + kk` of the contraction axis. (Reduced mod 2048 so that it is defined for every `b`; for the
    eight blocks `b < 8` the reduction changes nothing.) -/
def kcol (b : ℕ) (kk : Fin 256) : Fin 2048 := ⟨(256 * b + kk.val) % 2048, Nat.mod_lt _ (by decide)⟩

theorem kcol_val (b : ℕ) (hb : b < 8) (kk : Fin 256) : (kcol b kk).val = 256 * b + kk.val := by
  have := kk.isLt
  show (256 * b + kk.val) % 2048 = _
  exact Nat.mod_eq_of_lt (by omega)

/-- Row `128 · i + p` of the batch: row `p` of batch tile `i`. (Reduced mod 2048 so that it is defined for every `i`; for
    the sixteen tiles `i < 16` the reduction changes nothing.) -/
def tileRow (i : ℕ) (p : Fin 128) : Fin 2048 := ⟨(128 * i + p.val) % 2048, Nat.mod_lt _ (by decide)⟩

theorem tileRow_val (i : ℕ) (hi : i < 16) (p : Fin 128) : (tileRow i p).val = 128 * i + p.val := by
  have := p.isLt
  show (128 * i + p.val) % 2048 = _
  exact Nat.mod_eq_of_lt (by omega)

/-- The eight blocks of 256 columns exhaust the 2048 columns: a sum over the columns, taken block by block. -/
theorem sum_kcol {M : Type*} [AddCommMonoid M] (a : Fin 2048 → M) :
    ∑ b ∈ Finset.range 8, ∑ kk : Fin 256, a (kcol b kk) = ∑ k : Fin 2048, a k := by
  have h1 : ∀ b, ∑ kk : Fin 256, a (kcol b kk)
      = ∑ kk ∈ Finset.range 256, a ⟨(256 * b + kk) % 2048, Nat.mod_lt _ (by decide)⟩ :=
    fun b => (Finset.sum_range fun kk => a ⟨(256 * b + kk) % 2048, Nat.mod_lt _ (by decide)⟩).symm
  simp only [h1]
  rw [sum_range_blocks (fun k => a ⟨k % 2048, Nat.mod_lt _ (by decide)⟩) 256 8, Finset.sum_range]
  exact Finset.sum_congr rfl fun k _ => congrArg a (Fin.ext (Nat.mod_eq_of_lt k.isLt))

/-! ## The cell -/

section Cell

variable (x h cprev : FVec Ideal SAct .f32) (wih whh : FVec Ideal SWgt .f32) (bih bhh : FVec Ideal SBias .f32)

/-- The pre-activation of gate column `n` for batch row `r`: the two matrix products and the two biases, added in
    the order (x·W_ih + b_ih) + h·W_hh + b_hh. -/
def preact (r : Fin 2048) (n : Fin 8192) : EReal :=
  (∑ k : Fin 2048, x (ix2 r k) * wih (ix2 n k)) + bih (ix1 n) + (∑ k : Fin 2048, h (ix2 r k) * whh (ix2 n k)) + bhh (ix1 n)

/-- Contraction block `b`'s share of the two products at (r, n). -/
def blockTerm (r : Fin 2048) (n : Fin 8192) (b : ℕ) : EReal :=
  (∑ kk : Fin 256, x (ix2 r (kcol b kk)) * wih (ix2 n (kcol b kk)))
    + ∑ kk : Fin 256, h (ix2 r (kcol b kk)) * whh (ix2 n (kcol b kk))

/-- The accumulator at (r, n) after contraction blocks `0 … s`: both biases, then each block's share. -/
def accAfter (r : Fin 2048) (n : Fin 8192) (s : ℕ) : EReal :=
  (bih (ix1 n) + bhh (ix1 n)) + ∑ b ∈ Finset.range (s + 1), blockTerm x h wih whh r n b

theorem accAfter_zero (r : Fin 2048) (n : Fin 8192) :
    accAfter x h wih whh bih bhh r n 0 = (bih (ix1 n) + bhh (ix1 n)) + blockTerm x h wih whh r n 0 := by
  unfold accAfter; rw [Finset.sum_range_one]

theorem accAfter_succ (r : Fin 2048) (n : Fin 8192) (s : ℕ) :
    accAfter x h wih whh bih bhh r n (s + 1) = accAfter x h wih whh bih bhh r n s + blockTerm x h wih whh r n (s + 1) := by
  unfold accAfter; rw [Finset.sum_range_succ _ (s + 1)]; exact (add_assoc _ _ _).symm

/-- After the eighth block the accumulator is the pre-activation. -/
theorem accAfter_last (r : Fin 2048) (n : Fin 8192) :
    accAfter x h wih whh bih bhh r n 7 = preact x h wih whh bih bhh r n := by
  unfold accAfter blockTerm preact
  rw [Finset.sum_add_distrib, sum_kcol (fun k => x (ix2 r k) * wih (ix2 n k)),
    sum_kcol (fun k => h (ix2 r k) * whh (ix2 n k))]
  ac_rfl

/-- Gate `q`'s column for hidden unit `j`: the gates lie side by side, 2048 columns each, in the order
    input (0), forget (1), candidate (2), output (3). -/
def gateCol (q : Fin 4) (j : Fin 2048) : Fin 8192 := ⟨2048 * q.val + j.val, by have := q.isLt; have := j.isLt; omega⟩

def inputGate (r j : Fin 2048) : EReal := Ideal.logistic (preact x h wih whh bih bhh r (gateCol 0 j))
def forgetGate (r j : Fin 2048) : EReal := Ideal.logistic (preact x h wih whh bih bhh r (gateCol 1 j))
def candGate (r j : Fin 2048) : EReal := Ideal.tanh (preact x h wih whh bih bhh r (gateCol 2 j))
def outputGate (r j : Fin 2048) : EReal := Ideal.logistic (preact x h wih whh bih bhh r (gateCol 3 j))

/-- The new cell state `f · c + i · g`. -/
def newCell (r j : Fin 2048) : EReal :=
  forgetGate x h wih whh bih bhh r j * cprev (ix2 r j) + inputGate x h wih whh bih bhh r j * candGate x h wih whh bih bhh r j

/-- The new hidden state `o · tanh c'`. -/
def newHidden (r j : Fin 2048) : EReal :=
  outputGate x h wih whh bih bhh r j * Ideal.tanh (newCell x h cprev wih whh bih bhh r j)

/-! The six result arrays, in the order both programs return them. -/

def resH : FVec Ideal SAct .f32 := fun i => newHidden x h cprev wih whh bih bhh (i 0) (i 1)
def resC : FVec Ideal SAct .f32 := fun i => newCell x h cprev wih whh bih bhh (i 0) (i 1)
def resF : FVec Ideal SAct .f32 := fun i => forgetGate x h wih whh bih bhh (i 0) (i 1)
def resI : FVec Ideal SAct .f32 := fun i => inputGate x h wih whh bih bhh (i 0) (i 1)
def resG : FVec Ideal SAct .f32 := fun i => candGate x h wih whh bih bhh (i 0) (i 1)
def resO : FVec Ideal SAct .f32 := fun i => outputGate x h wih whh bih bhh (i 0) (i 1)

end Cell

end Cert.LstmSpec

end
-- ==== Proof.KernelPayloads.lean ====
/-
  The body's arithmetic, read one element at a time over the extended reals.

  For a row `p` of a 128-row batch tile and a gate column `n` of 8192:
    * the bias payload is `b_ih n + b_hh n` whatever the row (a 1 × 8192 row broadcast down the tile);
    * the accumulation payload is `acc p n + (Σ_{kk<256} x p kk · W_ih n kk + Σ_{kk<256} h p kk · W_hh n kk)` over the step's
      256-column blocks: each `tpu.matmul` into a zero accumulator contracts the second axis of both operands, and a
      change of float format is the identity here;
    * gate `q` of hidden unit `j` reads the finished accumulator at column `2048 q + j` (a unit-stride slice), through
      the logistic function for the input, forget and output gates and through tanh for the candidate;
    * the new cell state is `f · c + i · g` and the new hidden state `o · tanh` of it.
-/
import proofs.«156340_j49675591746256_1_alg».proof.Proof.Gen.KernelIdeal.Skeleton
import proofs.«156340_j49675591746256_1_alg».proof.Proof.LstmSpec
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Cert.LstmSpec Idealize.ShloMosaic Idealize.ShloMosaic.ValueIdx

/-! ## The matrix product of two 256-column blocks -/

/-- The left operand's row is the result's row. -/
theorem lhs_row (i : S128x8192.Idx) (q : dot_S128x256_S8192x256_S128x8192_1_1_0_0_n_n.contr.Idx) :
    (dot_S128x256_S8192x256_S128x8192_1_1_0_0_n_n.lhsIdx i q 0).val = (i 0).val := by
  unfold DotDims.lhsIdx
  rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
  rfl
/-- The left operand's column is the contraction position. -/
theorem lhs_col (i : S128x8192.Idx) (q : dot_S128x256_S8192x256_S128x8192_1_1_0_0_n_n.contr.Idx) :
    (dot_S128x256_S8192x256_S128x8192_1_1_0_0_n_n.lhsIdx i q 1).val = (q ⟨0, by decide⟩).val :=
  dot_S128x256_S8192x256_S128x8192_1_1_0_0_n_n.lhsIdx_val_of_single rfl i q
/-- The right operand's row is the result's column. -/
theorem rhs_row (i : S128x8192.Idx) (q : dot_S128x256_S8192x256_S128x8192_1_1_0_0_n_n.contr.Idx) :
    (dot_S128x256_S8192x256_S128x8192_1_1_0_0_n_n.rhsIdx i q 0).val = (i 1).val := by
  unfold DotDims.rhsIdx
  rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
  rfl
/-- The right operand's column is the contraction position. -/
theorem rhs_col (i : S128x8192.Idx) (q : dot_S128x256_S8192x256_S128x8192_1_1_0_0_n_n.contr.Idx) :
    (dot_S128x256_S8192x256_S128x8192_1_1_0_0_n_n.rhsIdx i q 1).val = (q ⟨0, by decide⟩).val :=
  dot_S128x256_S8192x256_S128x8192_1_1_0_0_n_n.rhsIdx_val_of_single rfl i q

/-- A 128 × 256 block times the transpose of an 8192 × 256 block, into zero: at (p, n) the sum over the 256 shared
    columns of the products. -/
theorem blockProduct_at (l : FVec Ideal S128x256 .bf16) (r : FVec Ideal S8192x256 .bf16) (p : Fin 128) (n : Fin 8192) :
    matmul dot_S128x256_S8192x256_S128x8192_1_1_0_0_n_n none l r (constant S128x8192 .f32 0x00000000#32) (ix2 p n)
      = ∑ kk : Fin 256, l (ix2 p kk) * r (ix2 n kk) := by
  simp only [matmul]
  rw [Ideal.matmul_constant_zero_apply, ← Equiv.sum_comp (contrEquiv1 dot_S128x256_S8192x256_S128x8192_1_1_0_0_n_n 256 rfl rfl).symm]
  refine Finset.sum_congr rfl fun k _ => ?_
  have hk := contrEquiv1_symm_val dot_S128x256_S8192x256_S128x8192_1_1_0_0_n_n 256 rfl rfl k
  have el : dot_S128x256_S8192x256_S128x8192_1_1_0_0_n_n.lhsIdx (ix2 p n) ((contrEquiv1 dot_S128x256_S8192x256_S128x8192_1_1_0_0_n_n 256 rfl rfl).symm k) = ix2 p k := funext fun a => Fin.ext (by
    match a with
    | ⟨0, _⟩ => exact lhs_row _ _
    | ⟨1, _⟩ => exact (lhs_col _ _).trans hk)
  have er : dot_S128x256_S8192x256_S128x8192_1_1_0_0_n_n.rhsIdx (ix2 p n) ((contrEquiv1 dot_S128x256_S8192x256_S128x8192_1_1_0_0_n_n 256 rfl rfl).symm k) = ix2 n k := funext fun a => Fin.ext (by
    match a with
    | ⟨0, _⟩ => exact rhs_row _ _
    | ⟨1, _⟩ => exact (rhs_col _ _).trans hk)
  rw [el, er]

/-! ## The two accumulator payloads -/

/-- The bias row, broadcast down the tile: at (p, n) the sum of the two biases at n. -/
theorem bias_at (b1 b2 : Vec Ideal S1x8192 .f32) (p : Fin 128) (n : Fin 8192) :
    k0_pay1 (F := Ideal) b1 b2 (ix2 p n) = b1 (ix2 0 n) + b2 (ix2 0 n) := by
  unfold k0_pay1
  simp only [shapeCast_self]
  exact broadcastTo_apply _ broadcasts_S1x8192_S128x8192 (ix2 p n) (ix2 0 n) (fun a => match a with
    | ⟨0, _⟩ => by show 0 = if (1 : Nat) = 1 then 0 else p.val; rw [if_pos rfl]
    | ⟨1, _⟩ => by show n.val = if (8192 : Nat) = 1 then 0 else n.val; rw [if_neg (by decide)])

/-- One contraction step: the accumulator plus the step's two block products. -/
theorem accum_at (xb : Vec Ideal S128x256 .bf16) (wb : Vec Ideal S8192x256 .bf16) (hb : Vec Ideal S128x256 .bf16)
    (ub : Vec Ideal S8192x256 .bf16) (acc : Vec Ideal S128x8192 .f32) (p : Fin 128) (n : Fin 8192) :
    k0_pay2 (F := Ideal) xb wb hb ub acc (ix2 p n)
      = acc (ix2 p n) + ((∑ kk : Fin 256, xb (ix2 p kk) * wb (ix2 n kk)) + ∑ kk : Fin 256, hb (ix2 p kk) * ub (ix2 n kk)) := by
  unfold k0_pay2
  simp only [shapeCast_self]
  show acc (ix2 p n) + (matmul (F := Ideal) dot_S128x256_S8192x256_S128x8192_1_1_0_0_n_n none xb wb (constant S128x8192 .f32 0x00000000#32) (ix2 p n)
    + matmul (F := Ideal) dot_S128x256_S8192x256_S128x8192_1_1_0_0_n_n none hb ub (constant S128x8192 .f32 0x00000000#32) (ix2 p n)) = _
  rw [blockProduct_at, blockProduct_at]

/-! ## The gates and the two states, from the finished accumulator -/

/-- A 2048-column slice of the accumulator at column offset `2048 q` is gate `q`'s columns. -/
theorem gateSlice_at (q : Fin 4) (acc : Vec Ideal S128x8192 .f32) (h : S128x8192.Slices ![0, 2048 * q.val] S128x2048)
    (p : Fin 128) (j : Fin 2048) :
    extractStridedSlice S128x2048 ![0, 2048 * q.val] acc h (ix2 p j) = acc (ix2 p (gateCol q j)) :=
  extractStridedSlice_apply _ acc h (ix2 p j) (ix2 p (gateCol q j)) (fun a => match a with
    | ⟨0, _⟩ => by show p.val = 0 + p.val; omega
    | ⟨1, _⟩ => rfl)

theorem inputGate_at (acc : Vec Ideal S128x8192 .f32) (p : Fin 128) (j : Fin 2048) :
    k0_pay3 (F := Ideal) acc (ix2 p j) = Ideal.logistic (acc (ix2 p (gateCol 0 j))) := by
  unfold k0_pay3
  exact congrArg Ideal.logistic (gateSlice_at 0 acc slices_S128x8192_o0_0_S128x2048 p j)

theorem forgetGate_at (acc : Vec Ideal S128x8192 .f32) (p : Fin 128) (j : Fin 2048) :
    k0_pay4 (F := Ideal) acc (ix2 p j) = Ideal.logistic (acc (ix2 p (gateCol 1 j))) := by
  unfold k0_pay4
  exact congrArg Ideal.logistic (gateSlice_at 1 acc slices_S128x8192_o0_2048_S128x2048 p j)

theorem candGate_at (acc : Vec Ideal S128x8192 .f32) (p : Fin 128) (j : Fin 2048) :
    k0_pay5 (F := Ideal) acc (ix2 p j) = Ideal.tanh (acc (ix2 p (gateCol 2 j))) := by
  unfold k0_pay5
  exact congrArg Ideal.tanh (gateSlice_at 2 acc slices_S128x8192_o0_4096_S128x2048 p j)

theorem outputGate_at (acc : Vec Ideal S128x8192 .f32) (p : Fin 128) (j : Fin 2048) :
    k0_pay6 (F := Ideal) acc (ix2 p j) = Ideal.logistic (acc (ix2 p (gateCol 3 j))) := by
  unfold k0_pay6
  exact congrArg Ideal.logistic (gateSlice_at 3 acc slices_S128x8192_o0_6144_S128x2048 p j)

/-- The new cell state `f · c + i · g`. -/
theorem newCell_at (acc : Vec Ideal S128x8192 .f32) (cblk : Vec Ideal S128x2048 .f32) (p : Fin 128) (j : Fin 2048) :
    k0_pay7 (F := Ideal) acc cblk (ix2 p j)
      = Ideal.logistic (acc (ix2 p (gateCol 1 j))) * cblk (ix2 p j)
        + Ideal.logistic (acc (ix2 p (gateCol 0 j))) * Ideal.tanh (acc (ix2 p (gateCol 2 j))) := by
  unfold k0_pay7
  show k0_pay4 (F := Ideal) acc (ix2 p j) * cblk (ix2 p j) + k0_pay3 (F := Ideal) acc (ix2 p j) * k0_pay5 (F := Ideal) acc (ix2 p j) = _
  rw [forgetGate_at, inputGate_at, candGate_at]

/-- The new hidden state `o · tanh c'`. -/
theorem newHidden_at (acc : Vec Ideal S128x8192 .f32) (cblk : Vec Ideal S128x2048 .f32) (p : Fin 128) (j : Fin 2048) :
    k0_pay8 (F := Ideal) acc cblk (ix2 p j)
      = Ideal.logistic (acc (ix2 p (gateCol 3 j))) * Ideal.tanh (k0_pay7 (F := Ideal) acc cblk (ix2 p j)) := by
  unfold k0_pay8
  show k0_pay6 (F := Ideal) acc (ix2 p j) * Ideal.tanh (k0_pay7 (F := Ideal) acc cblk (ix2 p j)) = _
  rw [outputGate_at]

end Cert.KernelIdeal.Payloads

end
-- ==== Proof.KernelBlocks.lean ====
/-
  What each staged block holds, in terms of the program's argument arrays.

  The grid is 16 batch tiles × 8 contraction steps, walked row-major, so grid point `t` is batch tile `t / 8` at
  contraction step `t % 8`. At it the pipeline stages rows `128 (t/8) … +127` and columns `256 (t%8) … +255` of x and of
  h, all 8192 rows and columns `256 (t%8) … +255` of W_ih and of W_hh, the two biases whole (each reshaped to one row of
  8192), and rows `128 (t/8) … +127` of the cell state. Before the region the host narrows x, h, W_ih and W_hh to
  bfloat16; over the extended reals a change of float format is the identity, so those arrays are read as the arguments.
-/
import proofs.«156340_j49675591746256_1_alg».proof.Proof.Gen.KernelIdeal.Frame
import proofs.«156340_j49675591746256_1_alg».proof.Proof.LstmSpec
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.LstmSpec Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The arrays the region is entered with -/

/-- x narrowed to bfloat16 is x. -/
theorem entry_x (c : Dev nD) (i : S2048x2048.Idx) : V m c main_v0 i = m ((c : Thread nD τ).loc main_arg0) i := by
  have e : (V m c main_v0 : S2048x2048.Idx → EReal) = truncf (F := Ideal) .bf16 (m ((c : Thread nD τ).loc main_arg0)) bitsLt_bf16_f32 := by
    dsimp only [V, hostOps0]; after_results
  exact congrFun e i

/-- h narrowed to bfloat16 is h. -/
theorem entry_h (c : Dev nD) (i : S2048x2048.Idx) : V m c main_v1 i = m ((c : Thread nD τ).loc main_arg1) i := by
  have e : (V m c main_v1 : S2048x2048.Idx → EReal) = truncf (F := Ideal) .bf16 (m ((c : Thread nD τ).loc main_arg1)) bitsLt_bf16_f32 := by
    dsimp only [V, hostOps0]; after_results
  exact congrFun e i

/-- W_ih narrowed to bfloat16 is W_ih. -/
theorem entry_wih (c : Dev nD) (i : S8192x2048.Idx) : V m c main_v2 i = m ((c : Thread nD τ).loc main_arg3) i := by
  have e : (V m c main_v2 : S8192x2048.Idx → EReal) = truncf (F := Ideal) .bf16 (m ((c : Thread nD τ).loc main_arg3)) bitsLt_bf16_f32 := by
    dsimp only [V, hostOps0]; after_results
  exact congrFun e i

/-- W_hh narrowed to bfloat16 is W_hh. -/
theorem entry_whh (c : Dev nD) (i : S8192x2048.Idx) : V m c main_v3 i = m ((c : Thread nD τ).loc main_arg5) i := by
  have e : (V m c main_v3 : S8192x2048.Idx → EReal) = truncf (F := Ideal) .bf16 (m ((c : Thread nD τ).loc main_arg5)) bitsLt_bf16_f32 := by
    dsimp only [V, hostOps0]; after_results
  exact congrFun e i

/-- b_ih reshaped to one row: entry n of the row is entry n of the bias. -/
theorem entry_bih (c : Dev nD) (n : Fin 8192) : V m c main_v4 (ix2 0 n) = m ((c : Thread nD τ).loc main_arg4) (ix1 n) := by
  dsimp only [V, hostOps0]
  after_results
  show shapeCast S1x8192 (m ((c : Thread nD τ).loc main_arg4)) shapeCasts_S8192_S1x8192 (ix2 0 n) = _
  exact shapeCast_apply _ shapeCasts_S8192_S1x8192 (ix2 0 n) (ix1 n) (by
    rw [Shape.rowMajor_val_one, Shape.rowMajor_val_two]; show n.val = 0 * 8192 + n.val; omega)

/-- b_hh reshaped to one row likewise. -/
theorem entry_bhh (c : Dev nD) (n : Fin 8192) : V m c main_v5 (ix2 0 n) = m ((c : Thread nD τ).loc main_arg6) (ix1 n) := by
  dsimp only [V, hostOps0]
  after_results
  show shapeCast S1x8192 (m ((c : Thread nD τ).loc main_arg6)) shapeCasts_S8192_S1x8192 (ix2 0 n) = _
  exact shapeCast_apply _ shapeCasts_S8192_S1x8192 (ix2 0 n) (ix1 n) (by
    rw [Shape.rowMajor_val_one, Shape.rowMajor_val_two]; show n.val = 0 * 8192 + n.val; omega)

/-- The cell state is staged as launched. -/
theorem entry_c (c : Dev nD) (i : S2048x2048.Idx) : V m c main_arg2 i = m ((c : Thread nD τ).loc main_arg2) i :=
  congrFun (V_main_arg2 m c) i

/-! ## Where the input windows' blocks lie (the printed index maps, decided once over the 128 grid points) -/

theorem idx_x : ∀ t : Fin cfg0.N, win0_0.index t (0 : Fin 2) = t.val / 8 ∧ win0_0.index t (1 : Fin 2) = t.val % 8 :=
  (by decide +kernel : ∀ t : Fin grid0.N, _)
theorem idx_h : ∀ t : Fin cfg0.N, win0_1.index t (0 : Fin 2) = t.val / 8 ∧ win0_1.index t (1 : Fin 2) = t.val % 8 :=
  (by decide +kernel : ∀ t : Fin grid0.N, _)
theorem idx_wih : ∀ t : Fin cfg0.N, win0_2.index t (0 : Fin 2) = 0 ∧ win0_2.index t (1 : Fin 2) = t.val % 8 :=
  (by decide +kernel : ∀ t : Fin grid0.N, _)
theorem idx_whh : ∀ t : Fin cfg0.N, win0_3.index t (0 : Fin 2) = 0 ∧ win0_3.index t (1 : Fin 2) = t.val % 8 :=
  (by decide +kernel : ∀ t : Fin grid0.N, _)
theorem idx_bih : ∀ t : Fin cfg0.N, win0_4.index t (0 : Fin 2) = 0 ∧ win0_4.index t (1 : Fin 2) = 0 :=
  (by decide +kernel : ∀ t : Fin grid0.N, _)
theorem idx_bhh : ∀ t : Fin cfg0.N, win0_5.index t (0 : Fin 2) = 0 ∧ win0_5.index t (1 : Fin 2) = 0 :=
  (by decide +kernel : ∀ t : Fin grid0.N, _)
theorem idx_c : ∀ t : Fin cfg0.N, win0_6.index t (0 : Fin 2) = t.val / 8 ∧ win0_6.index t (1 : Fin 2) = 0 :=
  (by decide +kernel : ∀ t : Fin grid0.N, _)

/-! ## The blocks, by their literal types -/

abbrev xblk (c : Dev nD) (t : Fin cfg0.N) : Vec Ideal S128x256 .bf16 := iblk m c 0 t
abbrev hblk (c : Dev nD) (t : Fin cfg0.N) : Vec Ideal S128x256 .bf16 := iblk m c 1 t
abbrev wihblk (c : Dev nD) (t : Fin cfg0.N) : Vec Ideal S8192x256 .bf16 := iblk m c 2 t
abbrev whhblk (c : Dev nD) (t : Fin cfg0.N) : Vec Ideal S8192x256 .bf16 := iblk m c 3 t
abbrev bihblk (c : Dev nD) (t : Fin cfg0.N) : Vec Ideal S1x8192 .f32 := iblk m c 4 t
abbrev bhhblk (c : Dev nD) (t : Fin cfg0.N) : Vec Ideal S1x8192 .f32 := iblk m c 5 t
abbrev cblk (c : Dev nD) (t : Fin cfg0.N) : Vec Ideal S128x2048 .f32 := iblk m c 6 t

/-- x's block: row p of tile t/8, column kk of contraction block t%8. -/
theorem xblk_at (c : Dev nD) (t : Fin cfg0.N) (p : Fin 128) (kk : Fin 256) :
    xblk m c t (ix2 p kk) = m ((c : Thread nD τ).loc main_arg0) (ix2 (tileRow (t.val / 8) p) (kcol (t.val % 8) kk)) := by
  have hN : t.val < 128 := lt_of_lt_of_eq t.isLt N_0
  obtain ⟨e0, e1⟩ := idx_x t
  unfold xblk iblk
  rw [View.read_apply]
  refine (entry_x m c _).trans ?_
  refine congrArg (m ((c : Thread nD τ).loc main_arg0)) (funext fun a => Fin.ext ?_)
  match a with
  | ⟨0, _⟩ => show win0_0.index t (0 : Fin 2) * 128 + 1 * p.val = (128 * (t.val / 8) + p.val) % 2048; rw [e0]; omega
  | ⟨1, _⟩ => show win0_0.index t (1 : Fin 2) * 256 + 1 * kk.val = (256 * (t.val % 8) + kk.val) % 2048; rw [e1]; omega

/-- b_ih's block is the whole reshaped bias. -/
theorem bihblk_at (c : Dev nD) (t : Fin cfg0.N) (n : Fin 8192) :
    bihblk m c t (ix2 0 n) = m ((c : Thread nD τ).loc main_arg4) (ix1 n) := by
  obtain ⟨e0, e1⟩ := idx_bih t
  unfold bihblk iblk
  rw [View.read_apply]
  refine Eq.trans ?_ (entry_bih m c n)
  refine congrArg (V m c main_v4) (funext fun a => Fin.ext ?_)
  match a with
  | ⟨0, _⟩ => show win0_4.index t (0 : Fin 2) * 1 + 1 * 0 = 0; rw [e0]
  | ⟨1, _⟩ => show win0_4.index t (1 : Fin 2) * 8192 + 1 * n.val = n.val; rw [e1]; omega

/-- b_hh's block likewise. -/
theorem bhhblk_at (c : Dev nD) (t : Fin cfg0.N) (n : Fin 8192) :
    bhhblk m c t (ix2 0 n) = m ((c : Thread nD τ).loc main_arg6) (ix1 n) := by
  obtain ⟨e0, e1⟩ := idx_bhh t
  unfold bhhblk iblk
  rw [View.read_apply]
  refine Eq.trans ?_ (entry_bhh m c n)
  refine congrArg (V m c main_v5) (funext fun a => Fin.ext ?_)
  match a with
  | ⟨0, _⟩ => show win0_5.index t (0 : Fin 2) * 1 + 1 * 0 = 0; rw [e0]
  | ⟨1, _⟩ => show win0_5.index t (1 : Fin 2) * 8192 + 1 * n.val = n.val; rw [e1]; omega

end Cert.KernelIdeal.Blocks

end
-- ==== Proof.KernelBlocksSiblings.lean ====
import proofs.«156340_j49675591746256_1_alg».proof.Proof.KernelBlocks

set_option maxRecDepth 16384

noncomputable section

namespace Cert.KernelIdeal.Blocks

open Cert.KernelIdeal Cert.KernelIdeal.Gen Cert.LstmSpec Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The other four staged blocks that move with the grid point -/

/-- h's block likewise. -/
theorem hblk_at (c : Dev nD) (t : Fin cfg0.N) (p : Fin 128) (kk : Fin 256) :
    hblk m c t (ix2 p kk) = m ((c : Thread nD τ).loc main_arg1) (ix2 (tileRow (t.val / 8) p) (kcol (t.val % 8) kk)) := by
  have hN : t.val < 128 := lt_of_lt_of_eq t.isLt N_0
  obtain ⟨e0, e1⟩ := idx_h t
  unfold hblk iblk
  rw [View.read_apply]
  refine (entry_h m c _).trans ?_
  refine congrArg (m ((c : Thread nD τ).loc main_arg1)) (funext fun a => Fin.ext ?_)
  match a with
  | ⟨0, _⟩ => show win0_1.index t (0 : Fin 2) * 128 + 1 * p.val = (128 * (t.val / 8) + p.val) % 2048; rw [e0]; omega
  | ⟨1, _⟩ => show win0_1.index t (1 : Fin 2) * 256 + 1 * kk.val = (256 * (t.val % 8) + kk.val) % 2048; rw [e1]; omega

/-- W_ih's block: every gate column n, column kk of contraction block t%8. -/
theorem wihblk_at (c : Dev nD) (t : Fin cfg0.N) (n : Fin 8192) (kk : Fin 256) :
    wihblk m c t (ix2 n kk) = m ((c : Thread nD τ).loc main_arg3) (ix2 n (kcol (t.val % 8) kk)) := by
  have hN : t.val < 128 := lt_of_lt_of_eq t.isLt N_0
  obtain ⟨e0, e1⟩ := idx_wih t
  unfold wihblk iblk
  rw [View.read_apply]
  refine (entry_wih m c _).trans ?_
  refine congrArg (m ((c : Thread nD τ).loc main_arg3)) (funext fun a => Fin.ext ?_)
  match a with
  | ⟨0, _⟩ => show win0_2.index t (0 : Fin 2) * 8192 + 1 * n.val = n.val; rw [e0]; omega
  | ⟨1, _⟩ => show win0_2.index t (1 : Fin 2) * 256 + 1 * kk.val = (256 * (t.val % 8) + kk.val) % 2048; rw [e1]; omega

/-- W_hh's block likewise. -/
theorem whhblk_at (c : Dev nD) (t : Fin cfg0.N) (n : Fin 8192) (kk : Fin 256) :
    whhblk m c t (ix2 n kk) = m ((c : Thread nD τ).loc main_arg5) (ix2 n (kcol (t.val % 8) kk)) := by
  have hN : t.val < 128 := lt_of_lt_of_eq t.isLt N_0
  obtain ⟨e0, e1⟩ := idx_whh t
  unfold whhblk iblk
  rw [View.read_apply]
  refine (entry_whh m c _).trans ?_
  refine congrArg (m ((c : Thread nD τ).loc main_arg5)) (funext fun a => Fin.ext ?_)
  match a with
  | ⟨0, _⟩ => show win0_3.index t (0 : Fin 2) * 8192 + 1 * n.val = n.val; rw [e0]; omega
  | ⟨1, _⟩ => show win0_3.index t (1 : Fin 2) * 256 + 1 * kk.val = (256 * (t.val % 8) + kk.val) % 2048; rw [e1]; omega

/-- The cell state's block: row p of tile t/8, every hidden unit j. -/
theorem cblk_at (c : Dev nD) (t : Fin cfg0.N) (p : Fin 128) (j : Fin 2048) :
    cblk m c t (ix2 p j) = m ((c : Thread nD τ).loc main_arg2) (ix2 (tileRow (t.val / 8) p) j) := by
  have hN : t.val < 128 := lt_of_lt_of_eq t.isLt N_0
  obtain ⟨e0, e1⟩ := idx_c t
  unfold cblk iblk
  rw [View.read_apply]
  refine (entry_c m c _).trans ?_
  refine congrArg (m ((c : Thread nD τ).loc main_arg2)) (funext fun a => Fin.ext ?_)
  match a with
  | ⟨0, _⟩ => show win0_6.index t (0 : Fin 2) * 128 + 1 * p.val = (128 * (t.val / 8) + p.val) % 2048; rw [e0]; omega
  | ⟨1, _⟩ => show win0_6.index t (1 : Fin 2) * 2048 + 1 * j.val = j.val; rw [e1]; omega

end Cert.KernelIdeal.Blocks

end
-- ==== Proof.KernelAccum.lean ====
/-
  The accumulator after every grid point.

  Grid point `t` is batch tile `t / 8` at contraction step `t % 8`. Claim: after point `t` the accumulator holds, at row
  `p` of the tile and gate column `n`, the two biases plus the shares of contraction blocks `0 … t % 8` for batch row
  `128 (t/8) + p` (`accAfter` of the specification). By induction along the grid: a tile's first step stores the
  bias row and adds block 0's share; every later step adds its block's share to what the step before left, and the
  step before belongs to the same tile. At a tile's last step (`t % 8 = 7`) this is the pre-activation itself.
-/
import proofs.«156340_j49675591746256_1_alg».proof.Proof.KernelPieces
import proofs.«156340_j49675591746256_1_alg».proof.Proof.KernelPayloads
import proofs.«156340_j49675591746256_1_alg».proof.Proof.KernelBlocks
import proofs.«156340_j49675591746256_1_alg».proof.Proof.KernelBlocksSiblings

set_option maxRecDepth 16384

noncomputable section

namespace Cert.KernelIdeal.Accum

open Cert.KernelIdeal Cert.KernelIdeal.Gen Cert.KernelIdeal.Blocks Cert.LstmSpec Idealize.ShloMosaic Idealize.ShloMosaic.TcCoe Idealize.ShloMosaic.ValueIdx Idealize.SL.Sem

variable (m : (ℓ : Loc nD τ sig) → Buf (Elt Ideal) ℓ)

/-- The specification's accumulator over core `c`'s argument arrays. -/
abbrev accSpec (c : Dev nD) (r : Fin 2048) (n : Fin 8192) (s : ℕ) : EReal :=
  accAfter (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) r n s

/-- One contraction step at point `t`, read at (p, n): the accumulator it found plus block `t % 8`'s share for batch
    row `128 (t/8) + p`. -/
theorem step_at (c : Dev nD) (t : Fin cfg0.N) (acc : Vec Ideal S128x8192 .f32) (p : Fin 128) (n : Fin 8192) :
    k0_pay2 (F := Ideal) (xblk m c t) (wihblk m c t) (hblk m c t) (whhblk m c t) acc (ix2 p n)
      = acc (ix2 p n) + blockTerm (m ((c : Thread nD τ).loc main_arg0)) (m ((c : Thread nD τ).loc main_arg1)) (m ((c : Thread nD τ).loc main_arg3)) (m ((c : Thread nD τ).loc main_arg5)) (tileRow (t.val / 8) p) n (t.val % 8) := by
  rw [Payloads.accum_at]
  unfold blockTerm
  simp only [xblk_at, hblk_at, wihblk_at, whhblk_at]

/-- At a tile's first step the accumulator ends at the step's payload over the bias row. -/
theorem scratch_first (c : Dev nD) (t : Fin cfg0.N) (h0 : t.val % 8 = 0) (h1 : ¬t.val % 8 = 7) :
    (outsAt0 m c t.val t.isLt).2.2.2.2.2.2
      = k0_pay2 (F := Ideal) (xblk m c t) (wihblk m c t) (hblk m c t) (whhblk m c t) (k0_pay1 (F := Ideal) (bihblk m c t) (bhhblk m c t)) := by
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At every later step it ends at the step's payload over what the step before left. -/
theorem scratch_next (c : Dev nD) (t : Fin cfg0.N) (h0 : ¬t.val % 8 = 0) :
    (outsAt0 m c t.val t.isLt).2.2.2.2.2.2
      = k0_pay2 (F := Ideal) (xblk m c t) (wihblk m c t) (hblk m c t) (whhblk m c t) ((outsAt0 m c (t.val - 1) (Nat.lt_of_le_of_lt (Nat.sub_le _ _) t.isLt)).2.2.2.2.2.2) := by
  by_cases h1 : t.val % 8 = 7
  · rw [outsAt0_C m c t h0 h1]
    dsimp only
    exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)
  · rw [outsAt0_B m c t h0 h1]
    dsimp only
    exact Pieces.acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)

/-- THE INVARIANT: after point `n` the accumulator is the specification's, for tile `n / 8` after blocks `0 … n % 8`. -/
theorem scratch_inv (c : Dev nD) : ∀ (n : ℕ) (hn : n < cfg0.N) (p : Fin 128) (col : Fin 8192),
    (outsAt0 m c n hn).2.2.2.2.2.2 (ix2 p col) = accSpec m c (tileRow (n / 8) p) col (n % 8)
  | 0, hn, p, col => by
    have hs := congrFun (scratch_first m c ⟨0, hn⟩ rfl (by show ¬ 0 % 8 = 7; decide)) (ix2 p col)
    rw [step_at, Payloads.bias_at, bihblk_at, bhhblk_at] at hs
    exact hs.trans (accAfter_zero (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (tileRow (0 / 8) p) col).symm
  | n + 1, hn, p, col => by
    have hN : n + 1 < 128 := lt_of_lt_of_eq hn N_0
    by_cases h0 : (n + 1) % 8 = 0
    · have hs := congrFun (scratch_first m c ⟨n + 1, hn⟩ h0 (by show ¬ (n + 1) % 8 = 7; omega)) (ix2 p col)
      rw [step_at, Payloads.bias_at, bihblk_at, bhhblk_at] at hs
      refine hs.trans ?_
      show _ = accSpec m c (tileRow ((n + 1) / 8) p) col ((n + 1) % 8)
      have e := (accAfter_zero (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (tileRow ((n + 1) / 8) p) col).symm
      rw [← h0] at e
      exact e
    · have hs := congrFun (scratch_next m c ⟨n + 1, hn⟩ h0) (ix2 p col)
      rw [step_at] at hs
      have ih := scratch_inv c n (Nat.lt_of_succ_lt hn) p col
      have e1 : (n + 1) / 8 = n / 8 := by omega
      have e2 : (n + 1) % 8 = n % 8 + 1 := by omega
      refine hs.trans ?_
      show (outsAt0 m c n (Nat.lt_of_succ_lt hn)).2.2.2.2.2.2 (ix2 p col)
          + blockTerm (m ((c : Thread nD τ).loc main_arg0)) (m ((c : Thread nD τ).loc main_arg1)) (m ((c : Thread nD τ).loc main_arg3)) (m ((c : Thread nD τ).loc main_arg5)) (tileRow ((n + 1) / 8) p) col ((n + 1) % 8)
        = accSpec m c (tileRow ((n + 1) / 8) p) col ((n + 1) % 8)
      rw [ih, e1, e2]
      exact (accAfter_succ (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (tileRow (n / 8) p) col (n % 8)).symm

/-- At a tile's last step the accumulator is the pre-activation of the tile's rows. -/
theorem scratch_last (c : Dev nD) (t : Fin cfg0.N) (h1 : t.val % 8 = 7) (p : Fin 128) (col : Fin 8192) :
    (outsAt0 m c t.val t.isLt).2.2.2.2.2.2 (ix2 p col)
      = preact (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (tileRow (t.val / 8) p) col := by
  rw [scratch_inv m c t.val t.isLt p col, h1]
  exact accAfter_last (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (tileRow (t.val / 8) p) col

end Cert.KernelIdeal.Accum

end
-- ==== Proof.KernelCover.lean ====
/-
  Where the kernel writes its six result arrays.

  The kernel runs on a grid of 16 × 8 points: point t works on batch tile t / 8 (128 rows of the batch) and on
  contraction step t % 8. Each of the six results is a 2048 × 2048 array cut into sixteen blocks of 128 rows by all
  2048 columns; the block index of every result window at point t is (t / 8, 0), and the block is written back at the
  tile's last contraction step, t % 8 = 7. Two facts follow for each result window:
    * every index (r, j) of the array lies in the block written back at the point 8 · (r / 128) + 7;
    * entry (p, j) of the block of point t is entry (128 · (t / 8) + p, j) of the array.
  The index maps are decided once over the 128 grid points; the rest is arithmetic of quotients by 128 and by 8.
-/
import proofs.«156340_j49675591746256_1_alg».proof.Proof.Gen.KernelIdeal.Frame
import proofs.«156340_j49675591746256_1_alg».proof.Proof.LstmSpec
import Idealize.ShloMosaic.Lib.Pipeline.Value
import Idealize.ShloMosaic.Lib.ValueIdx

noncomputable section

namespace Cert.KernelIdeal.Cover

open Cert.KernelIdeal Cert.KernelIdeal.Gen Cert.LstmSpec Idealize.ShloMosaic Idealize.ShloMosaic.ValueIdx

/-! ## The grid points and the arithmetic of the blocks -/

/-- The grid has 16 · 8 = 128 points. -/
theorem point_lt (t : Fin cfg0.N) : t.val < 128 := lt_of_lt_of_eq t.isLt (show cfg0.N = 128 from N_0)

/-- The point that writes back the block holding index (r, j): the last contraction step of batch tile `r / 128`. -/
def flushPoint (i : S2048x2048.Idx) : Fin cfg0.N :=
  ⟨8 * ((i 0).val / 128) + 7, lt_of_lt_of_eq (by have := idx2_lt0 i; omega : 8 * ((i 0).val / 128) + 7 < 128)
    (show 128 = cfg0.N from N_0.symm)⟩

theorem flushPoint_mod (i : S2048x2048.Idx) : (flushPoint i).val % 8 = 7 := by
  show (8 * ((i 0).val / 128) + 7) % 8 = 7; omega

theorem flushPoint_div (i : S2048x2048.Idx) : (flushPoint i).val / 8 = (i 0).val / 128 := by
  show (8 * ((i 0).val / 128) + 7) / 8 = (i 0).val / 128; omega

/-- An index (r, j) lies in the 128 × 2048 block of block index (r / 128, 0). -/
theorem in_block (i : S2048x2048.Idx) (b0 b1 : Nat) (h0 : b0 = (i 0).val / 128) (h1 : b1 = 0) :
    (b0 * 128 ≤ (i 0).val ∧ (i 0).val < b0 * 128 + 128) ∧ (b1 * 2048 ≤ (i 1).val ∧ (i 1).val < b1 * 2048 + 2048) := by
  have hi1 : (i 1).val < 2048 := idx2_lt1 i
  subst h0 h1; omega

/-- Row `p` of the block of block index `t / 8` is row `128 · (t / 8) + p` of the array. -/
theorem block_row (t : Fin cfg0.N) (p : Fin 128) (b0 : Nat) (h0 : b0 = t.val / 8) :
    b0 * 128 + 1 * p.val = (tileRow (t.val / 8) p).val := by
  have ht := point_lt t
  rw [tileRow_val _ (by omega), h0]; omega

/-- Column `j` of a block of block index 0 along the columns is column `j` of the array. -/
theorem block_col (j : Fin 2048) (b1 : Nat) (h1 : b1 = 0) : b1 * 2048 + 1 * j.val = j.val := by
  subst h1; omega

/-! ## Result 0 (window 7) -/

/-- The window's block index at point `t` is (t / 8, 0): decided over the grid. -/
theorem idx_facts7 : ∀ t : Fin cfg0.N, win0_7.index t (0 : Fin 2) = t.val / 8 ∧ win0_7.index t (1 : Fin 2) = 0 :=
  (by decide +kernel : ∀ t : Fin grid0.N, _)

/-- An index of the array is in point `t`'s block iff each coordinate is in the block's range on its axis. -/
theorem mem_blk7 (t : Fin cfg0.N) (i : S2048x2048.Idx) :
    i ∈ ((cfg0.win 7).blk t).view.set ↔ ∀ a : Fin 2, win0_7.index t a * S128x2048.size a ≤ (i a).val
      ∧ (i a).val < win0_7.index t a * S128x2048.size a + S128x2048.size a := by
  show i ∈ ((View.whole main_v6_0).slice (win0_7.rect t)).set ↔ _
  rw [View.set_slice_whole, Rect.mem_set_unit]
  exact Iff.rfl

theorem cover7 (i : S2048x2048.Idx) :
    ∃ t : Fin cfg0.N, (cfg0.win 7).flush t = true ∧ i ∈ ((cfg0.win 7).blk t).view.set := by
  obtain ⟨e0, e1⟩ := idx_facts7 (flushPoint i)
  rw [flushPoint_div] at e0
  refine ⟨flushPoint i, (flush0_7 _).mpr (flushPoint_mod _), ?_⟩
  rw [mem_blk7]
  have h := in_block i _ _ e0 e1
  intro a
  match a with
  | ⟨0, _⟩ => exact h.1
  | ⟨1, _⟩ => exact h.2

theorem emb7 (t : Fin cfg0.N) (p : Fin 128) (j : Fin 2048) :
    ((cfg0.win 7).blk t).view.emb (ix2 p j) = ix2 (tileRow (t.val / 8) p) j := by
  obtain ⟨e0, e1⟩ := idx_facts7 t
  funext a; apply Fin.ext
  match a with
  | ⟨0, _⟩ => exact block_row t p (win0_7.index t (0 : Fin 2)) e0
  | ⟨1, _⟩ => exact block_col j (win0_7.index t (1 : Fin 2)) e1

/-! ## Result 1 (window 8) -/

/-- The window's block index at point `t` is (t / 8, 0): decided over the grid. -/
theorem idx_facts8 : ∀ t : Fin cfg0.N, win0_8.index t (0 : Fin 2) = t.val / 8 ∧ win0_8.index t (1 : Fin 2) = 0 :=
  (by decide +kernel : ∀ t : Fin grid0.N, _)

/-- An index of the array is in point `t`'s block iff each coordinate is in the block's range on its axis. -/
theorem mem_blk8 (t : Fin cfg0.N) (i : S2048x2048.Idx) :
    i ∈ ((cfg0.win 8).blk t).view.set ↔ ∀ a : Fin 2, win0_8.index t a * S128x2048.size a ≤ (i a).val
      ∧ (i a).val < win0_8.index t a * S128x2048.size a + S128x2048.size a := by
  show i ∈ ((View.whole main_v6_1).slice (win0_8.rect t)).set ↔ _
  rw [View.set_slice_whole, Rect.mem_set_unit]
  exact Iff.rfl

theorem cover8 (i : S2048x2048.Idx) :
    ∃ t : Fin cfg0.N, (cfg0.win 8).flush t = true ∧ i ∈ ((cfg0.win 8).blk t).view.set := by
  obtain ⟨e0, e1⟩ := idx_facts8 (flushPoint i)
  rw [flushPoint_div] at e0
  refine ⟨flushPoint i, (flush0_8 _).mpr (flushPoint_mod _), ?_⟩
  rw [mem_blk8]
  have h := in_block i _ _ e0 e1
  intro a
  match a with
  | ⟨0, _⟩ => exact h.1
  | ⟨1, _⟩ => exact h.2

theorem emb8 (t : Fin cfg0.N) (p : Fin 128) (j : Fin 2048) :
    ((cfg0.win 8).blk t).view.emb (ix2 p j) = ix2 (tileRow (t.val / 8) p) j := by
  obtain ⟨e0, e1⟩ := idx_facts8 t
  funext a; apply Fin.ext
  match a with
  | ⟨0, _⟩ => exact block_row t p (win0_8.index t (0 : Fin 2)) e0
  | ⟨1, _⟩ => exact block_col j (win0_8.index t (1 : Fin 2)) e1

/-! ## Result 2 (window 9) -/

/-- The window's block index at point `t` is (t / 8, 0): decided over the grid. -/
theorem idx_facts9 : ∀ t : Fin cfg0.N, win0_9.index t (0 : Fin 2) = t.val / 8 ∧ win0_9.index t (1 : Fin 2) = 0 :=
  (by decide +kernel : ∀ t : Fin grid0.N, _)

/-- An index of the array is in point `t`'s block iff each coordinate is in the block's range on its axis. -/
theorem mem_blk9 (t : Fin cfg0.N) (i : S2048x2048.Idx) :
    i ∈ ((cfg0.win 9).blk t).view.set ↔ ∀ a : Fin 2, win0_9.index t a * S128x2048.size a ≤ (i a).val
      ∧ (i a).val < win0_9.index t a * S128x2048.size a + S128x2048.size a := by
  show i ∈ ((View.whole main_v6_2).slice (win0_9.rect t)).set ↔ _
  rw [View.set_slice_whole, Rect.mem_set_unit]
  exact Iff.rfl

theorem cover9 (i : S2048x2048.Idx) :
    ∃ t : Fin cfg0.N, (cfg0.win 9).flush t = true ∧ i ∈ ((cfg0.win 9).blk t).view.set := by
  obtain ⟨e0, e1⟩ := idx_facts9 (flushPoint i)
  rw [flushPoint_div] at e0
  refine ⟨flushPoint i, (flush0_9 _).mpr (flushPoint_mod _), ?_⟩
  rw [mem_blk9]
  have h := in_block i _ _ e0 e1
  intro a
  match a with
  | ⟨0, _⟩ => exact h.1
  | ⟨1, _⟩ => exact h.2

theorem emb9 (t : Fin cfg0.N) (p : Fin 128) (j : Fin 2048) :
    ((cfg0.win 9).blk t).view.emb (ix2 p j) = ix2 (tileRow (t.val / 8) p) j := by
  obtain ⟨e0, e1⟩ := idx_facts9 t
  funext a; apply Fin.ext
  match a with
  | ⟨0, _⟩ => exact block_row t p (win0_9.index t (0 : Fin 2)) e0
  | ⟨1, _⟩ => exact block_col j (win0_9.index t (1 : Fin 2)) e1

/-! ## Result 3 (window 10) -/

/-- The window's block index at point `t` is (t / 8, 0): decided over the grid. -/
theorem idx_facts10 : ∀ t : Fin cfg0.N, win0_10.index t (0 : Fin 2) = t.val / 8 ∧ win0_10.index t (1 : Fin 2) = 0 :=
  (by decide +kernel : ∀ t : Fin grid0.N, _)

/-- An index of the array is in point `t`'s block iff each coordinate is in the block's range on its axis. -/
theorem mem_blk10 (t : Fin cfg0.N) (i : S2048x2048.Idx) :
    i ∈ ((cfg0.win 10).blk t).view.set ↔ ∀ a : Fin 2, win0_10.index t a * S128x2048.size a ≤ (i a).val
      ∧ (i a).val < win0_10.index t a * S128x2048.size a + S128x2048.size a := by
  show i ∈ ((View.whole main_v6_3).slice (win0_10.rect t)).set ↔ _
  rw [View.set_slice_whole, Rect.mem_set_unit]
  exact Iff.rfl

theorem cover10 (i : S2048x2048.Idx) :
    ∃ t : Fin cfg0.N, (cfg0.win 10).flush t = true ∧ i ∈ ((cfg0.win 10).blk t).view.set := by
  obtain ⟨e0, e1⟩ := idx_facts10 (flushPoint i)
  rw [flushPoint_div] at e0
  refine ⟨flushPoint i, (flush0_10 _).mpr (flushPoint_mod _), ?_⟩
  rw [mem_blk10]
  have h := in_block i _ _ e0 e1
  intro a
  match a with
  | ⟨0, _⟩ => exact h.1
  | ⟨1, _⟩ => exact h.2

theorem emb10 (t : Fin cfg0.N) (p : Fin 128) (j : Fin 2048) :
    ((cfg0.win 10).blk t).view.emb (ix2 p j) = ix2 (tileRow (t.val / 8) p) j := by
  obtain ⟨e0, e1⟩ := idx_facts10 t
  funext a; apply Fin.ext
  match a with
  | ⟨0, _⟩ => exact block_row t p (win0_10.index t (0 : Fin 2)) e0
  | ⟨1, _⟩ => exact block_col j (win0_10.index t (1 : Fin 2)) e1

/-! ## Result 4 (window 11) -/

/-- The window's block index at point `t` is (t / 8, 0): decided over the grid. -/
theorem idx_facts11 : ∀ t : Fin cfg0.N, win0_11.index t (0 : Fin 2) = t.val / 8 ∧ win0_11.index t (1 : Fin 2) = 0 :=
  (by decide +kernel : ∀ t : Fin grid0.N, _)

/-- An index of the array is in point `t`'s block iff each coordinate is in the block's range on its axis. -/
theorem mem_blk11 (t : Fin cfg0.N) (i : S2048x2048.Idx) :
    i ∈ ((cfg0.win 11).blk t).view.set ↔ ∀ a : Fin 2, win0_11.index t a * S128x2048.size a ≤ (i a).val
      ∧ (i a).val < win0_11.index t a * S128x2048.size a + S128x2048.size a := by
  show i ∈ ((View.whole main_v6_4).slice (win0_11.rect t)).set ↔ _
  rw [View.set_slice_whole, Rect.mem_set_unit]
  exact Iff.rfl

theorem cover11 (i : S2048x2048.Idx) :
    ∃ t : Fin cfg0.N, (cfg0.win 11).flush t = true ∧ i ∈ ((cfg0.win 11).blk t).view.set := by
  obtain ⟨e0, e1⟩ := idx_facts11 (flushPoint i)
  rw [flushPoint_div] at e0
  refine ⟨flushPoint i, (flush0_11 _).mpr (flushPoint_mod _), ?_⟩
  rw [mem_blk11]
  have h := in_block i _ _ e0 e1
  intro a
  match a with
  | ⟨0, _⟩ => exact h.1
  | ⟨1, _⟩ => exact h.2

theorem emb11 (t : Fin cfg0.N) (p : Fin 128) (j : Fin 2048) :
    ((cfg0.win 11).blk t).view.emb (ix2 p j) = ix2 (tileRow (t.val / 8) p) j := by
  obtain ⟨e0, e1⟩ := idx_facts11 t
  funext a; apply Fin.ext
  match a with
  | ⟨0, _⟩ => exact block_row t p (win0_11.index t (0 : Fin 2)) e0
  | ⟨1, _⟩ => exact block_col j (win0_11.index t (1 : Fin 2)) e1

/-! ## Result 5 (window 12) -/

/-- The window's block index at point `t` is (t / 8, 0): decided over the grid. -/
theorem idx_facts12 : ∀ t : Fin cfg0.N, win0_12.index t (0 : Fin 2) = t.val / 8 ∧ win0_12.index t (1 : Fin 2) = 0 :=
  (by decide +kernel : ∀ t : Fin grid0.N, _)

/-- An index of the array is in point `t`'s block iff each coordinate is in the block's range on its axis. -/
theorem mem_blk12 (t : Fin cfg0.N) (i : S2048x2048.Idx) :
    i ∈ ((cfg0.win 12).blk t).view.set ↔ ∀ a : Fin 2, win0_12.index t a * S128x2048.size a ≤ (i a).val
      ∧ (i a).val < win0_12.index t a * S128x2048.size a + S128x2048.size a := by
  show i ∈ ((View.whole main_v6_5).slice (win0_12.rect t)).set ↔ _
  rw [View.set_slice_whole, Rect.mem_set_unit]
  exact Iff.rfl

theorem cover12 (i : S2048x2048.Idx) :
    ∃ t : Fin cfg0.N, (cfg0.win 12).flush t = true ∧ i ∈ ((cfg0.win 12).blk t).view.set := by
  obtain ⟨e0, e1⟩ := idx_facts12 (flushPoint i)
  rw [flushPoint_div] at e0
  refine ⟨flushPoint i, (flush0_12 _).mpr (flushPoint_mod _), ?_⟩
  rw [mem_blk12]
  have h := in_block i _ _ e0 e1
  intro a
  match a with
  | ⟨0, _⟩ => exact h.1
  | ⟨1, _⟩ => exact h.2

theorem emb12 (t : Fin cfg0.N) (p : Fin 128) (j : Fin 2048) :
    ((cfg0.win 12).blk t).view.emb (ix2 p j) = ix2 (tileRow (t.val / 8) p) j := by
  obtain ⟨e0, e1⟩ := idx_facts12 t
  funext a; apply Fin.ext
  match a with
  | ⟨0, _⟩ => exact block_row t p (win0_12.index t (0 : Fin 2)) e0
  | ⟨1, _⟩ => exact block_col j (win0_12.index t (1 : Fin 2)) e1

end Cert.KernelIdeal.Cover

end
-- ==== Proof.KernelFinalHidden.lean ====
/-
  From the sixteen written-back blocks of each result to the whole array, and the kernel's run restated.

  A result array is written back only at the last contraction step of each batch tile (grid points `t` with
  `t % 8 = 7`): block `t / 8`, rows `128 (t/8) … +127`, all 2048 columns. There the accumulator is the pre-activation
  of the tile's rows (the invariant), so what is written at row `p`, column `j` is the specification's value at batch
  row `128 (t/8) + p`, hidden unit `j`. The sixteen blocks tile the array, so the array ends holding the specification's
  function everywhere.
-/
import proofs.«156340_j49675591746256_1_alg».proof.Proof.Gen.KernelIdeal.Value
import proofs.«156340_j49675591746256_1_alg».proof.Proof.KernelAccum
import proofs.«156340_j49675591746256_1_alg».proof.Proof.KernelCover

set_option maxRecDepth 16384

noncomputable section

namespace Cert.KernelIdeal.Final

open Cert.KernelIdeal Cert.KernelIdeal.Gen Cert.KernelIdeal.Blocks Cert.KernelIdeal.Accum Cert.KernelIdeal.Cover Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The accumulator as the last contraction step of a tile leaves it: the step's payload over what the step before left. -/
abbrev accLast (c : Dev nD) (t : Fin cfg0.N) : Vec Ideal S128x8192 .f32 :=
  k0_pay2 (F := Ideal) (xblk m c t) (wihblk m c t) (hblk m c t) (whhblk m c t) ((outsAt0 m c (t.val - 1) (Nat.lt_of_le_of_lt (Nat.sub_le _ _) t.isLt)).2.2.2.2.2.2)

/-- It is the pre-activation of the tile's rows. -/
theorem accLast_at (c : Dev nD) (t : Fin cfg0.N) (h1 : t.val % 8 = 7) (p : Fin 128) (col : Fin 8192) :
    accLast m c t (ix2 p col) = preact (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (tileRow (t.val / 8) p) col :=
  (congrFun (scratch_next m c t (by omega)) (ix2 p col)).symm.trans (scratch_last m c t h1 p col)

/-! ## Result 0: the new hidden state -/

/-- A 128 × 2048 block that agrees with a whole array on the tile's rows is that array read through the window's block. -/
theorem blockOf7 (t : Fin cfg0.N) (G : Vec Ideal S2048x2048 .f32) (B : Vec Ideal S128x2048 .f32)
    (h : ∀ (p : Fin 128) (j : Fin 2048), B (ix2 p j) = G (ix2 (tileRow (t.val / 8) p) j)) :
    B = ((cfg0.win 7).blk t).view.read (Elt Ideal) G := by
  funext y
  obtain ⟨p, j, rfl⟩ : ∃ (p : Fin 128) (j : Fin 2048), y = ix2 p j := ⟨y 0, y 1, eq_ix2 y⟩
  rw [h p j, View.read_apply, emb7 t p j]
  rfl

/-- What a tile's last step leaves in the block, at (p, j): the specification at batch row `128 (t/8) + p`. -/
theorem lastStep7_at (c : Dev nD) (t : Fin cfg0.N) (h1 : t.val % 8 = 7) (p : Fin 128) (j : Fin 2048) :
    k0_pay8 (F := Ideal) (accLast m c t) (cblk m c t) (ix2 p j) = resH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (ix2 (tileRow (t.val / 8) p) j) := by
  rw [Payloads.newHidden_at, Payloads.newCell_at]
  simp only [accLast_at m c t h1, cblk_at]
  rfl

/-- What point `t` writes back is block `t` of the specification's array. -/
theorem flushed7_eq (c : Dev nD) (t : Fin cfg0.N) (hf : (cfg0.win 7).flush t = true) :
    (dats m 0 c).flushed 7 t = ((cfg0.win 7).blk t).view.read (Elt Ideal) (resH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  have h1 : t.val % 8 = 7 := (flush0_7 t).mp hf
  have h0 : ¬t.val % 8 = 0 := by omega
  rw [Value.flushed7_C m c t h0 h1]
  show out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2) = _
  rw [Pieces.out_last_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)]
  exact blockOf7 t (resH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (k0_pay8 (F := Ideal) (accLast m c t) (cblk m c t)) (lastStep7_at m c t h1)

/-- The array after the run. -/
theorem final7 (c : Dev nD) : (dats m 0 c).arrAt 7 cfg0.N = resH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 (resH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (fun t hf => flushed7_eq m c t hf) cover7

end Cert.KernelIdeal.Final

end
-- ==== Proof.KernelPiecesSiblings.lean ====
import proofs.«156340_j49675591746256_1_alg».proof.Proof.KernelPieces

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-! ## What the last contraction step leaves in the other five result blocks -/

/-- The last contraction step leaves the new cell state of the finished accumulator in result block 1. -/
theorem out_last_8 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay7 (k0_pay2 x0 x2 x1 x3 xs0) x6 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x2048) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

/-- The last contraction step leaves the forget gate of the finished accumulator in result block 2. -/
theorem out_last_9 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay4 (k0_pay2 x0 x2 x1 x3 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x2048) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

/-- The last contraction step leaves the input gate of the finished accumulator in result block 3. -/
theorem out_last_10 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay3 (k0_pay2 x0 x2 x1 x3 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x2048) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

/-- The last contraction step leaves the candidate gate of the finished accumulator in result block 4. -/
theorem out_last_11 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay5 (k0_pay2 x0 x2 x1 x3 xs0) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x2048) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

/-- The last contraction step leaves the output gate of the finished accumulator in result block 5. -/
theorem out_last_12 (c : Dev nD) (i : grid0.Coords) (arg2 : Memref sig .tc .vmem S128x256 .bf16) (harg2 : arg2.IsWhole) (arg3 : Memref sig .tc .vmem S128x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x8192 .f32) (harg15 : arg15.IsWhole) (hc0 : ¬cond0_0 i) (hc1 : cond0_1 i)
    (x0 : Vec F S128x256 .bf16) (x1 : Vec F S128x256 .bf16) (x2 : Vec F S8192x256 .bf16) (x3 : Vec F S8192x256 .bf16) (x4 : Vec F S1x8192 .f32) (x5 : Vec F S1x8192 .f32) (x6 : Vec F S128x2048 .f32) (xs0 : Vec F S128x8192 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 = k0_pay6 (k0_pay2 x0 x2 x1 x3 xs0) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0)]
  unfold kernelRun0_C
  dsimp only
  sl_unfold_words
  rw [View.canon_unit_zero (S := S128x2048) offsets_zero]
  simp only [View.readAt_eq_ld, harg2.read_unread, harg3.read_unread, harg4.read_unread, harg5.read_unread, harg6.read_unread, harg7.read_unread, harg8.read_unread, harg15.read_unread,
    View.ld_unit_zero (S := S128x256) offsets_zero, View.ld_unit_zero (S := S8192x256) offsets_zero, View.ld_unit_zero (S := S1x8192) offsets_zero,
    View.ld_unit_zero (S := S128x2048) offsets_zero, View.ld_unit_zero (S := S128x8192) offsets_zero, View.readCov_unit_zero (S := S128x8192) _ offsets_zero]

end Cert.KernelIdeal.Pieces

end
-- ==== Proof.KernelFinalSiblings.lean ====
import proofs.«156340_j49675591746256_1_alg».proof.Proof.KernelFinalHidden
import proofs.«156340_j49675591746256_1_alg».proof.Proof.KernelPiecesSiblings

set_option maxRecDepth 16384

noncomputable section

namespace Cert.KernelIdeal.Final

open Cert.KernelIdeal Cert.KernelIdeal.Gen Cert.KernelIdeal.Blocks Cert.KernelIdeal.Accum Cert.KernelIdeal.Cover Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Result 1: the new cell state -/

/-- A 128 × 2048 block that agrees with a whole array on the tile's rows is that array read through the window's block. -/
theorem blockOf8 (t : Fin cfg0.N) (G : Vec Ideal S2048x2048 .f32) (B : Vec Ideal S128x2048 .f32)
    (h : ∀ (p : Fin 128) (j : Fin 2048), B (ix2 p j) = G (ix2 (tileRow (t.val / 8) p) j)) :
    B = ((cfg0.win 8).blk t).view.read (Elt Ideal) G := by
  funext y
  obtain ⟨p, j, rfl⟩ : ∃ (p : Fin 128) (j : Fin 2048), y = ix2 p j := ⟨y 0, y 1, eq_ix2 y⟩
  rw [h p j, View.read_apply, emb8 t p j]
  rfl

/-- What a tile's last step leaves in the block, at (p, j): the specification at batch row `128 (t/8) + p`. -/
theorem lastStep8_at (c : Dev nD) (t : Fin cfg0.N) (h1 : t.val % 8 = 7) (p : Fin 128) (j : Fin 2048) :
    k0_pay7 (F := Ideal) (accLast m c t) (cblk m c t) (ix2 p j) = resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (ix2 (tileRow (t.val / 8) p) j) := by
  rw [Payloads.newCell_at]
  simp only [accLast_at m c t h1, cblk_at]
  rfl

/-- What point `t` writes back is block `t` of the specification's array. -/
theorem flushed8_eq (c : Dev nD) (t : Fin cfg0.N) (hf : (cfg0.win 8).flush t = true) :
    (dats m 0 c).flushed 8 t = ((cfg0.win 8).blk t).view.read (Elt Ideal) (resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  have h1 : t.val % 8 = 7 := (flush0_8 t).mp hf
  have h0 : ¬t.val % 8 = 0 := by omega
  rw [Value.flushed8_C m c t h0 h1]
  show out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2) = _
  rw [Pieces.out_last_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)]
  exact blockOf8 t (resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (k0_pay7 (F := Ideal) (accLast m c t) (cblk m c t)) (lastStep8_at m c t h1)

/-- The array after the run. -/
theorem final8 (c : Dev nD) : (dats m 0 c).arrAt 8 cfg0.N = resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 8 (resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (fun t hf => flushed8_eq m c t hf) cover8

/-! ## Result 2: the forget gate -/

/-- A 128 × 2048 block that agrees with a whole array on the tile's rows is that array read through the window's block. -/
theorem blockOf9 (t : Fin cfg0.N) (G : Vec Ideal S2048x2048 .f32) (B : Vec Ideal S128x2048 .f32)
    (h : ∀ (p : Fin 128) (j : Fin 2048), B (ix2 p j) = G (ix2 (tileRow (t.val / 8) p) j)) :
    B = ((cfg0.win 9).blk t).view.read (Elt Ideal) G := by
  funext y
  obtain ⟨p, j, rfl⟩ : ∃ (p : Fin 128) (j : Fin 2048), y = ix2 p j := ⟨y 0, y 1, eq_ix2 y⟩
  rw [h p j, View.read_apply, emb9 t p j]
  rfl

/-- What a tile's last step leaves in the block, at (p, j): the specification at batch row `128 (t/8) + p`. -/
theorem lastStep9_at (c : Dev nD) (t : Fin cfg0.N) (h1 : t.val % 8 = 7) (p : Fin 128) (j : Fin 2048) :
    k0_pay4 (F := Ideal) (accLast m c t) (ix2 p j) = resF (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (ix2 (tileRow (t.val / 8) p) j) := by
  rw [Payloads.forgetGate_at]
  simp only [accLast_at m c t h1]
  rfl

/-- What point `t` writes back is block `t` of the specification's array. -/
theorem flushed9_eq (c : Dev nD) (t : Fin cfg0.N) (hf : (cfg0.win 9).flush t = true) :
    (dats m 0 c).flushed 9 t = ((cfg0.win 9).blk t).view.read (Elt Ideal) (resF (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) := by
  have h1 : t.val % 8 = 7 := (flush0_9 t).mp hf
  have h0 : ¬t.val % 8 = 0 := by omega
  rw [Value.flushed9_C m c t h0 h1]
  show out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2) = _
  rw [Pieces.out_last_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)]
  exact blockOf9 t (resF (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (k0_pay4 (F := Ideal) (accLast m c t)) (lastStep9_at m c t h1)

/-- The array after the run. -/
theorem final9 (c : Dev nD) : (dats m 0 c).arrAt 9 cfg0.N = resF (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) :=
  (dats m 0 c).arrAt_eq_of_cover 9 (resF (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (fun t hf => flushed9_eq m c t hf) cover9

/-! ## Result 3: the input gate -/

/-- A 128 × 2048 block that agrees with a whole array on the tile's rows is that array read through the window's block. -/
theorem blockOf10 (t : Fin cfg0.N) (G : Vec Ideal S2048x2048 .f32) (B : Vec Ideal S128x2048 .f32)
    (h : ∀ (p : Fin 128) (j : Fin 2048), B (ix2 p j) = G (ix2 (tileRow (t.val / 8) p) j)) :
    B = ((cfg0.win 10).blk t).view.read (Elt Ideal) G := by
  funext y
  obtain ⟨p, j, rfl⟩ : ∃ (p : Fin 128) (j : Fin 2048), y = ix2 p j := ⟨y 0, y 1, eq_ix2 y⟩
  rw [h p j, View.read_apply, emb10 t p j]
  rfl

/-- What a tile's last step leaves in the block, at (p, j): the specification at batch row `128 (t/8) + p`. -/
theorem lastStep10_at (c : Dev nD) (t : Fin cfg0.N) (h1 : t.val % 8 = 7) (p : Fin 128) (j : Fin 2048) :
    k0_pay3 (F := Ideal) (accLast m c t) (ix2 p j) = resI (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (ix2 (tileRow (t.val / 8) p) j) := by
  rw [Payloads.inputGate_at]
  simp only [accLast_at m c t h1]
  rfl

/-- What point `t` writes back is block `t` of the specification's array. -/
theorem flushed10_eq (c : Dev nD) (t : Fin cfg0.N) (hf : (cfg0.win 10).flush t = true) :
    (dats m 0 c).flushed 10 t = ((cfg0.win 10).blk t).view.read (Elt Ideal) (resI (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) := by
  have h1 : t.val % 8 = 7 := (flush0_10 t).mp hf
  have h0 : ¬t.val % 8 = 0 := by omega
  rw [Value.flushed10_C m c t h0 h1]
  show out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2) = _
  rw [Pieces.out_last_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)]
  exact blockOf10 t (resI (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (k0_pay3 (F := Ideal) (accLast m c t)) (lastStep10_at m c t h1)

/-- The array after the run. -/
theorem final10 (c : Dev nD) : (dats m 0 c).arrAt 10 cfg0.N = resI (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) :=
  (dats m 0 c).arrAt_eq_of_cover 10 (resI (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (fun t hf => flushed10_eq m c t hf) cover10

/-! ## Result 4: the candidate gate -/

/-- A 128 × 2048 block that agrees with a whole array on the tile's rows is that array read through the window's block. -/
theorem blockOf11 (t : Fin cfg0.N) (G : Vec Ideal S2048x2048 .f32) (B : Vec Ideal S128x2048 .f32)
    (h : ∀ (p : Fin 128) (j : Fin 2048), B (ix2 p j) = G (ix2 (tileRow (t.val / 8) p) j)) :
    B = ((cfg0.win 11).blk t).view.read (Elt Ideal) G := by
  funext y
  obtain ⟨p, j, rfl⟩ : ∃ (p : Fin 128) (j : Fin 2048), y = ix2 p j := ⟨y 0, y 1, eq_ix2 y⟩
  rw [h p j, View.read_apply, emb11 t p j]
  rfl

/-- What a tile's last step leaves in the block, at (p, j): the specification at batch row `128 (t/8) + p`. -/
theorem lastStep11_at (c : Dev nD) (t : Fin cfg0.N) (h1 : t.val % 8 = 7) (p : Fin 128) (j : Fin 2048) :
    k0_pay5 (F := Ideal) (accLast m c t) (ix2 p j) = resG (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (ix2 (tileRow (t.val / 8) p) j) := by
  rw [Payloads.candGate_at]
  simp only [accLast_at m c t h1]
  rfl

/-- What point `t` writes back is block `t` of the specification's array. -/
theorem flushed11_eq (c : Dev nD) (t : Fin cfg0.N) (hf : (cfg0.win 11).flush t = true) :
    (dats m 0 c).flushed 11 t = ((cfg0.win 11).blk t).view.read (Elt Ideal) (resG (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) := by
  have h1 : t.val % 8 = 7 := (flush0_11 t).mp hf
  have h0 : ¬t.val % 8 = 0 := by omega
  rw [Value.flushed11_C m c t h0 h1]
  show out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2) = _
  rw [Pieces.out_last_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)]
  exact blockOf11 t (resG (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (k0_pay5 (F := Ideal) (accLast m c t)) (lastStep11_at m c t h1)

/-- The array after the run. -/
theorem final11 (c : Dev nD) : (dats m 0 c).arrAt 11 cfg0.N = resG (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) :=
  (dats m 0 c).arrAt_eq_of_cover 11 (resG (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (fun t hf => flushed11_eq m c t hf) cover11

/-! ## Result 5: the output gate -/

/-- A 128 × 2048 block that agrees with a whole array on the tile's rows is that array read through the window's block. -/
theorem blockOf12 (t : Fin cfg0.N) (G : Vec Ideal S2048x2048 .f32) (B : Vec Ideal S128x2048 .f32)
    (h : ∀ (p : Fin 128) (j : Fin 2048), B (ix2 p j) = G (ix2 (tileRow (t.val / 8) p) j)) :
    B = ((cfg0.win 12).blk t).view.read (Elt Ideal) G := by
  funext y
  obtain ⟨p, j, rfl⟩ : ∃ (p : Fin 128) (j : Fin 2048), y = ix2 p j := ⟨y 0, y 1, eq_ix2 y⟩
  rw [h p j, View.read_apply, emb12 t p j]
  rfl

/-- What a tile's last step leaves in the block, at (p, j): the specification at batch row `128 (t/8) + p`. -/
theorem lastStep12_at (c : Dev nD) (t : Fin cfg0.N) (h1 : t.val % 8 = 7) (p : Fin 128) (j : Fin 2048) :
    k0_pay6 (F := Ideal) (accLast m c t) (ix2 p j) = resO (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (ix2 (tileRow (t.val / 8) p) j) := by
  rw [Payloads.outputGate_at]
  simp only [accLast_at m c t h1]
  rfl

/-- What point `t` writes back is block `t` of the specification's array. -/
theorem flushed12_eq (c : Dev nD) (t : Fin cfg0.N) (hf : (cfg0.win 12).flush t = true) :
    (dats m 0 c).flushed 12 t = ((cfg0.win 12).blk t).view.read (Elt Ideal) (resO (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) := by
  have h1 : t.val % 8 = 7 := (flush0_12 t).mp hf
  have h0 : ¬t.val % 8 = 0 := by omega
  rw [Value.flushed12_C m c t h0 h1]
  show out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2) = _
  rw [Pieces.out_last_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) ((outsAt0 m c (t.val - 1) (Nat.lt_of_le_of_lt (Nat.sub_le _ _) t.isLt)).2.2.2.2.2.2)]
  exact blockOf12 t (resO (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (k0_pay6 (F := Ideal) (accLast m c t)) (lastStep12_at m c t h1)

/-- The array after the run. -/
theorem final12 (c : Dev nD) : (dats m 0 c).arrAt 12 cfg0.N = resO (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) :=
  (dats m 0 c).arrAt_eq_of_cover 12 (resO (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))) (fun t hf => flushed12_eq m c t hf) cover12

end Cert.KernelIdeal.Final

end
-- ==== Proof.KernelFinal.lean ====
/-
  The kernel's run restated: every weakly fair execution ends with the six result arrays at the specification's
  functions of the arguments (each result's sixteen written-back blocks tile it, and each block holds the
  specification's values on its rows), and with the seven arguments as they were.
-/
import proofs.«156340_j49675591746256_1_alg».proof.Proof.Gen.KernelIdeal.Value
import proofs.«156340_j49675591746256_1_alg».proof.Proof.KernelFinalSiblings

set_option maxRecDepth 16384

noncomputable section

namespace Cert.KernelIdeal.Final

open Cert.KernelIdeal Cert.KernelIdeal.Gen Cert.LstmSpec
open Idealize.ShloMosaic Idealize.ShloMosaic.TcCoe Idealize.SL.Sem

variable (m : (ℓ : Loc nD τ sig) → Buf (Elt Ideal) ℓ) (ρ : Dev nD → PrngReg)

/-! ## The run -/

/-- Every weakly fair execution of the kernel program ends with the six results at the specification's arrays of the
    arguments, and the arguments unchanged. -/
theorem run : θ_run defs (onTc (τ := τ) (main (F := Ideal))) ⟨m, fun _ => 0, ρ⟩ fun r => ∀ c : Dev nD,
      r.2.mem ((c : Thread nD τ).loc main_v6_0) = resH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧       r.2.mem ((c : Thread nD τ).loc main_v6_1) = resC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧       r.2.mem ((c : Thread nD τ).loc main_v6_2) = resF (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))
      ∧       r.2.mem ((c : Thread nD τ).loc main_v6_3) = resI (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))
      ∧       r.2.mem ((c : Thread nD τ).loc main_v6_4) = resG (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))
      ∧       r.2.mem ((c : Thread nD τ).loc main_v6_5) = resO (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c),
      (h c).2.2.2.1.trans (final10 m c), (h c).2.2.2.2.1.trans (final11 m c), (h c).2.2.2.2.2.1.trans (final12 m c),
      (h c).2.2.2.2.2.2⟩)
    (Value.run_blocks m ρ)

end Cert.KernelIdeal.Final

end
-- ==== Proof.RefValue.lean ====
/-
  The reference program computes the LSTM cell of the specification.

  The program forms the pre-activations
      gates r n = ((Σₖ x r k · W_ih n k + b_ih n) + Σₖ h r k · W_hh n k) + b_hh n
  as one 2048 × 8192 array (the transposes of the two weight matrices and the two broadcasts of the biases only
  re-index their operands), cuts it into four 2048 × 2048 arrays at the column offsets 0, 2048, 4096 and 6144, and
  applies to the first, second and fourth the expression 1 / (1 + e^(-z)) and to the third tanh; then
      c' = f · c + i · g,      h' = o · tanh c'.
  On the extended reals the logistic function IS the expression 1 / (1 + e^(-z)), and the word 0x3F800000 is the
  number 1, so each result is, index by index, the specification's gate: every step below is the unfolding of one
  operation at an index together with the identification of an index map, and nothing asks an input to be finite.
-/
import proofs.«156340_j49675591746256_1_alg».proof.Proof.Gen.ReferenceIdeal.Read
import proofs.«156340_j49675591746256_1_alg».proof.Proof.LstmSpec
import Idealize.ShloMosaic.PureOps.Ideal
import Idealize.ShloMosaic.PureOps.IdealRules
import Idealize.ShloMosaic.Lib.ValueIdx

noncomputable section

open scoped BigOperators

namespace Cert.ReferenceIdeal.RefValue

open Cert.ReferenceIdeal Cert.ReferenceIdeal.Read Cert.LstmSpec Idealize.ShloMosaic Idealize.ShloMosaic.ValueIdx

variable (x0 x1 x2 : FVec Ideal S2048x2048 .f32) (x3 x5 : FVec Ideal S8192x2048 .f32) (x4 x6 : FVec Ideal S8192 .f32)

/-! ## The pre-activations -/

/-- The left operand of either product at (r, n), term k: row r, column k. -/
theorem lidx_v1_ix (r : Fin 2048) (n : Fin 8192) (k : Fin 2048) : lidx_main_v1 (ix2 r n) k = ix2 r k :=
  funext fun a => Fin.ext (by match a with | ⟨0, _⟩ => rfl | ⟨1, _⟩ => rfl)

theorem lidx_v6_ix (r : Fin 2048) (n : Fin 8192) (k : Fin 2048) : lidx_main_v6 (ix2 r n) k = ix2 r k :=
  funext fun a => Fin.ext (by match a with | ⟨0, _⟩ => rfl | ⟨1, _⟩ => rfl)

/-- The right operand is the transposed weight matrix at (k, n): the weight matrix at (n, k). -/
theorem ridx_v1_ix (r : Fin 2048) (n : Fin 8192) (k : Fin 2048) : idx_main_v0 (ridx_main_v1 (ix2 r n) k) = ix2 n k :=
  funext fun a => Fin.ext (by match a with | ⟨0, _⟩ => rfl | ⟨1, _⟩ => rfl)

theorem ridx_v6_ix (r : Fin 2048) (n : Fin 8192) (k : Fin 2048) : idx_main_v5 (ridx_main_v6 (ix2 r n) k) = ix2 n k :=
  funext fun a => Fin.ext (by match a with | ⟨0, _⟩ => rfl | ⟨1, _⟩ => rfl)

/-- A bias broadcast to 1 × 8192 and then to 2048 × 8192, read at (r, n), is the bias at n. -/
theorem bias_v3_ix (r : Fin 2048) (n : Fin 8192) : idx_main_v2 (idx_main_v3 (ix2 r n)) = ix1 n :=
  funext fun a => Fin.ext (by match a with | ⟨0, _⟩ => rfl)

theorem bias_v9_ix (r : Fin 2048) (n : Fin 8192) : idx_main_v8 (idx_main_v9 (ix2 r n)) = ix1 n :=
  funext fun a => Fin.ext (by match a with | ⟨0, _⟩ => rfl)

/-- The 2048 × 8192 array of pre-activations, entry by entry. -/
theorem pre_eq (r : Fin 2048) (n : Fin 8192) :
    val_main_v10 (F := Ideal) x0 x1 x3 x4 x5 x6 (ix2 r n) = preact x0 x1 x3 x5 x4 x6 r n := by
  rw [val_main_v10_apply, val_main_v7_apply, val_main_v4_apply, val_main_v1_apply, val_main_v3_apply,
    val_main_v2_apply, val_main_v6_apply, val_main_v9_apply, val_main_v8_apply]
  simp only [val_main_v0_apply, val_main_v5_apply, lidx_v1_ix, lidx_v6_ix, ridx_v1_ix, ridx_v6_ix, bias_v3_ix,
    bias_v9_ix, Ideal.addf_def]
  rfl

/-! ## The four gates -/

/-- The word 0x3F800000 is the number 1. -/
theorem one_f32 : Ideal.ofBits .f32 0x3F800000#32 = 1 := IdealRules.sign_bit.ideal_onePat .f32

/-- Column j of gate q's slice is column 2048 · q + j of the pre-activation array. -/
theorem slice_v11_ix (r j : Fin 2048) : idx_main_v11 (ix2 r j) = ix2 r (gateCol 0 j) :=
  funext fun a => Fin.ext (by
    match a with
    | ⟨0, _⟩ => rfl
    | ⟨1, _⟩ => show j.val = 2048 * 0 + j.val; omega)

theorem slice_v12_ix (r j : Fin 2048) : idx_main_v12 (ix2 r j) = ix2 r (gateCol 1 j) :=
  funext fun a => Fin.ext (by
    match a with
    | ⟨0, _⟩ => rfl
    | ⟨1, _⟩ => show 2048 + j.val = 2048 * 1 + j.val; omega)

theorem slice_v13_ix (r j : Fin 2048) : idx_main_v13 (ix2 r j) = ix2 r (gateCol 2 j) :=
  funext fun a => Fin.ext (by
    match a with
    | ⟨0, _⟩ => rfl
    | ⟨1, _⟩ => show 4096 + j.val = 2048 * 2 + j.val; omega)

theorem slice_v14_ix (r j : Fin 2048) : idx_main_v14 (ix2 r j) = ix2 r (gateCol 3 j) :=
  funext fun a => Fin.ext (by
    match a with
    | ⟨0, _⟩ => rfl
    | ⟨1, _⟩ => show 6144 + j.val = 2048 * 3 + j.val; omega)

/-- 1 / (1 + e^(-z)), written with the program's operations and its constant, is the logistic function. -/
theorem logistic_spelled (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, one_f32]
  rfl

/-- The input gate at (r, j). -/
theorem input_at (r j : Fin 2048) :
    val_main_v20 (F := Ideal) x0 x1 x3 x4 x5 x6 (ix2 r j) = inputGate x0 x1 x3 x5 x4 x6 r j := by
  rw [val_main_v20_apply, val_main_v19_apply, val_main_cst_0_apply, val_main_v18_apply, val_main_v17_apply,
    val_main_cst_apply, val_main_v16_apply, val_main_v15_apply, val_main_v11_apply, slice_v11_ix, pre_eq]
  exact logistic_spelled _

/-- The forget gate at (r, j). -/
theorem forget_at (r j : Fin 2048) :
    val_main_v26 (F := Ideal) x0 x1 x3 x4 x5 x6 (ix2 r j) = forgetGate x0 x1 x3 x5 x4 x6 r j := by
  rw [val_main_v26_apply, val_main_v25_apply, val_main_cst_2_apply, val_main_v24_apply, val_main_v23_apply,
    val_main_cst_1_apply, val_main_v22_apply, val_main_v21_apply, val_main_v12_apply, slice_v12_ix, pre_eq]
  exact logistic_spelled _

/-- The candidate gate at (r, j). -/
theorem cand_at (r j : Fin 2048) :
    val_main_v27 (F := Ideal) x0 x1 x3 x4 x5 x6 (ix2 r j) = candGate x0 x1 x3 x5 x4 x6 r j := by
  rw [val_main_v27_apply, val_main_v13_apply, slice_v13_ix, pre_eq]
  rfl

/-- The output gate at (r, j). -/
theorem output_at (r j : Fin 2048) :
    val_main_v33 (F := Ideal) x0 x1 x3 x4 x5 x6 (ix2 r j) = outputGate x0 x1 x3 x5 x4 x6 r j := by
  rw [val_main_v33_apply, val_main_v32_apply, val_main_cst_4_apply, val_main_v31_apply, val_main_v30_apply,
    val_main_cst_3_apply, val_main_v29_apply, val_main_v28_apply, val_main_v14_apply, slice_v14_ix, pre_eq]
  exact logistic_spelled _

/-- The new cell state at (r, j): f · c + i · g. -/
theorem cell_at (r j : Fin 2048) :
    val_main_v36 (F := Ideal) x0 x1 x2 x3 x4 x5 x6 (ix2 r j) = newCell x0 x1 x2 x3 x5 x4 x6 r j := by
  rw [val_main_v36_apply, val_main_v34_apply, val_main_v35_apply, forget_at, input_at, cand_at]
  rfl

/-- The new hidden state at (r, j): o · tanh c'. -/
theorem hidden_at (r j : Fin 2048) :
    val_main_v38 (F := Ideal) x0 x1 x2 x3 x4 x5 x6 (ix2 r j) = newHidden x0 x1 x2 x3 x5 x4 x6 r j := by
  rw [val_main_v38_apply, val_main_v37_apply, output_at, cell_at]
  rfl

/-! ## The six result arrays -/

theorem hidden_eq : val_main_v38 (F := Ideal) x0 x1 x2 x3 x4 x5 x6 = resH x0 x1 x2 x3 x5 x4 x6 := by
  funext i
  obtain ⟨r, j, rfl⟩ : ∃ (r j : Fin 2048), i = ix2 r j := ⟨i 0, i 1, eq_ix2 i⟩
  exact hidden_at x0 x1 x2 x3 x5 x4 x6 r j

theorem cell_eq : val_main_v36 (F := Ideal) x0 x1 x2 x3 x4 x5 x6 = resC x0 x1 x2 x3 x5 x4 x6 := by
  funext i
  obtain ⟨r, j, rfl⟩ : ∃ (r j : Fin 2048), i = ix2 r j := ⟨i 0, i 1, eq_ix2 i⟩
  exact cell_at x0 x1 x2 x3 x5 x4 x6 r j

theorem forget_eq : val_main_v26 (F := Ideal) x0 x1 x3 x4 x5 x6 = resF x0 x1 x3 x5 x4 x6 := by
  funext i
  obtain ⟨r, j, rfl⟩ : ∃ (r j : Fin 2048), i = ix2 r j := ⟨i 0, i 1, eq_ix2 i⟩
  exact forget_at x0 x1 x3 x5 x4 x6 r j

theorem input_eq : val_main_v20 (F := Ideal) x0 x1 x3 x4 x5 x6 = resI x0 x1 x3 x5 x4 x6 := by
  funext i
  obtain ⟨r, j, rfl⟩ : ∃ (r j : Fin 2048), i = ix2 r j := ⟨i 0, i 1, eq_ix2 i⟩
  exact input_at x0 x1 x3 x5 x4 x6 r j

theorem cand_eq : val_main_v27 (F := Ideal) x0 x1 x3 x4 x5 x6 = resG x0 x1 x3 x5 x4 x6 := by
  funext i
  obtain ⟨r, j, rfl⟩ : ∃ (r j : Fin 2048), i = ix2 r j := ⟨i 0, i 1, eq_ix2 i⟩
  exact cand_at x0 x1 x3 x5 x4 x6 r j

theorem output_eq : val_main_v33 (F := Ideal) x0 x1 x3 x4 x5 x6 = resO x0 x1 x3 x5 x4 x6 := by
  funext i
  obtain ⟨r, j, rfl⟩ : ∃ (r j : Fin 2048), i = ix2 r j := ⟨i 0, i 1, eq_ix2 i⟩
  exact output_at x0 x1 x3 x5 x4 x6 r j

end Cert.ReferenceIdeal.RefValue

end
-- ==== Proof.lean ====
/-
  One LSTM cell step computed two ways, shown equal over the extended reals.

  The kernel walks a 16 × 8 grid: batch tiles of 128 rows by contraction steps of 256 columns. It keeps a
  128 × 8192 accumulator across the eight steps of a tile: at the first step it stores the two biases' sum, broadcast
  down the tile, and at every step adds x's block times W_ih's block (transposed) plus h's block times W_hh's; at the
  last step it slices the accumulator into the four gates, applies the logistic function (input, forget, output gates)
  and tanh (candidate), forms c' = f · c + i · g and h' = o · tanh c', and writes the six result blocks back.
  The reference computes (x · W_ihᵀ + b_ih) + h · W_hhᵀ + b_hh whole, slices it, spells the logistic function out as
  1 / (1 + e^(−z)) and forms the same six results.

  Over the extended reals a change of float format is the identity, `tpu.logistic` denotes 1 / (1 + e^(−z)) by
  definition, both tanh's are one function, and the two pre-activations differ only in how one finite sum is
  grouped and ordered: split into eight consecutive blocks, the two products' blocks interleaved, the biases added
  first rather than between. Addition on the extended reals is a commutative monoid, which is all that regrouping
  needs; no distributive law is used, so the precondition (finite inputs) is never opened.

  The parts: LstmSpec (the cell and its accumulation, index by index), RefValue (the reference's results are the
  specification's), KernelPieces / KernelPayloads / KernelBlocks (what each case of the body leaves, its arithmetic at
  an index, the staged blocks in terms of the arguments), KernelAccum (the accumulator after every grid point),
  KernelCover and KernelFinal (the written-back blocks tile each result; the kernel's run restated). The three frames
  are the generated ones; the idealization rewrote nothing, so `preserves` is trivial.
-/
import proofs.«156340_j49675591746256_1_alg».proof.Defs
import proofs.«156340_j49675591746256_1_alg».proof.Proof.Gen.Kernel
import proofs.«156340_j49675591746256_1_alg».proof.Proof.Gen.Kernel.Skeleton
import proofs.«156340_j49675591746256_1_alg».proof.Proof.Gen.Kernel.Launch
import proofs.«156340_j49675591746256_1_alg».proof.Proof.Gen.Kernel.Points
import proofs.«156340_j49675591746256_1_alg».proof.Proof.Gen.Kernel.Frame
import proofs.«156340_j49675591746256_1_alg».proof.Proof.Gen.KernelIdeal
import proofs.«156340_j49675591746256_1_alg».proof.Proof.Gen.KernelIdeal.Skeleton
import proofs.«156340_j49675591746256_1_alg».proof.Proof.Gen.KernelIdeal.Launch
import proofs.«156340_j49675591746256_1_alg».proof.Proof.Gen.KernelIdeal.Points
import proofs.«156340_j49675591746256_1_alg».proof.Proof.Gen.KernelIdeal.Frame
import proofs.«156340_j49675591746256_1_alg».proof.Proof.Gen.ReferenceIdeal
import proofs.«156340_j49675591746256_1_alg».proof.Proof.Gen.Pre_finite_inputs
import proofs.«156340_j49675591746256_1_alg».proof.Proof.Gen.KernelIdeal.Value
import proofs.«156340_j49675591746256_1_alg».proof.Proof.Gen.ReferenceIdeal.Run
import proofs.«156340_j49675591746256_1_alg».proof.Proof.Gen.ReferenceIdeal.Read
import proofs.«156340_j49675591746256_1_alg».proof.Proof.KernelFinal
import proofs.«156340_j49675591746256_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its results dropped. -/
theorem frame_referenceIdeal : Cert.frame_ReferenceIdeal := fun m ρ _ =>
  (θ_run Cert.ReferenceIdeal.defs _ _).mono (fun _ h c => (h c).2.2.2.2.2.2)
    (Cert.ReferenceIdeal.Value.run (F := Ideal) m ρ)

/-- The idealization rewrote no operation. -/
theorem preserves : Cert.preserves_Kernel_KernelIdeal := trivial

/-- From memories that agree on the seven arguments both programs end with the specification's six arrays of
    those arguments. -/
theorem algebraic : Cert.algebraic_KernelIdeal_ReferenceIdeal := by
  intro m ρ m' ρ' _ hagree
  refine ⟨_, _, _, _, _, _, Cert.KernelIdeal.Final.run m ρ, ?_⟩
  refine (θ_run Cert.ReferenceIdeal.defs _ _).mono (fun _ h c => ?_)
    (Cert.ReferenceIdeal.Value.run (F := Ideal) m' ρ')
  obtain ⟨a0, a1, a2, a3, a4, a5, a6⟩ := hagree c
  obtain ⟨r0, r1, r2, r3, r4, r5, rest⟩ := h c
  refine ⟨?_, ?_, ?_, ?_, ?_, ?_, rest⟩
  · rw [r0, Cert.ReferenceIdeal.Read.val_main_v38_eq, Cert.ReferenceIdeal.RefValue.hidden_eq, a0, a1, a2, a3, a4, a5, a6]
  · rw [r1, Cert.ReferenceIdeal.Read.val_main_v36_eq, Cert.ReferenceIdeal.RefValue.cell_eq, a0, a1, a2, a3, a4, a5, a6]
  · rw [r2, Cert.ReferenceIdeal.Read.val_main_v26_eq, Cert.ReferenceIdeal.RefValue.forget_eq, a0, a1, a3, a4, a5, a6]
  · rw [r3, Cert.ReferenceIdeal.Read.val_main_v20_eq, Cert.ReferenceIdeal.RefValue.input_eq, a0, a1, a3, a4, a5, a6]
  · rw [r4, Cert.ReferenceIdeal.Read.val_main_v27_eq, Cert.ReferenceIdeal.RefValue.cand_eq, a0, a1, a3, a4, a5, a6]
  · rw [r5, Cert.ReferenceIdeal.Read.val_main_v33_eq, Cert.ReferenceIdeal.RefValue.output_eq, a0, a1, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
